-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v65)) (v1 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_v69) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg1 : IVec S2x1600000 32) (main_v33 : IVec S_ 1) : IVec S_ 1 :=
  let main_v34 : IVec S1x1600000 32 := (extractStridedSlice S1x1600000 ![0, 0] · slices_S2x1600000_S1x1600000_0_0) main_arg1
  let main_v35 : IVec S1600000 32 := shapeCast S1600000 main_v34 shapeCasts_S1x1600000_S1600000
  let main_c_12 : IVec S_ 32 := constantI S_ 32 0#32
  let main_v36 : IVec S1600000 32 := broadcastInDim S1600000 ![] bcast_S_S1600000 main_c_12
  let main_v37 : IVec S1600000 1 := cmpi .sge main_v35 main_v36
  let main_v38 : IVec S1x1600000 32 := (extractStridedSlice S1x1600000 ![0, 0] · slices_S2x1600000_S1x1600000_0_0) main_arg1
  let main_v39 : IVec S1600000 32 := shapeCast S1600000 main_v38 shapeCasts_S1x1600000_S1600000
  let main_c_13 : IVec S_ 32 := constantI S_ 32 100000#32
  let main_v40 : IVec S1600000 32 := broadcastInDim S1600000 ![] bcast_S_S1600000 main_c_13
  let main_v41 : IVec S1600000 1 := cmpi .slt main_v39 main_v40
  let main_v42 : IVec S1600000 1 := andi main_v37 main_v41
  let main_c_14 : IVec S_ 1 := constantI S_ 1 1#1
  let main_v43 : IVec S_ 1 := (fun x v => Host.reduce IntOp.andi x v reducesTo_S1600000_S_d0 h_S_) main_v42 main_c_14
  let main_v44 : IVec S_ 1 := andi main_v33 main_v43
  main_v44

def fn_part1 {F : FTy → Type} [FloatOps F] (main_arg1 : IVec S2x1600000 32) (main_arg5 : FVec F S64 .f32) (main_arg6 : FVec F S64x40 .f32) (main_arg7 : FVec F S40 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x40 .f32 := Host.absf main_arg6
  let main_cst_8 : FVec F S_ .f32 := constant S_ .f32 0x7F800000#32
  let main_v25 : FVec F S64x40 .f32 := broadcastInDim S64x40 ![] bcast_S_S64x40 main_cst_8
  let main_v26 : IVec S64x40 1 := cmpf .olt main_v24 main_v25
  let main_c_9 : IVec S_ 1 := constantI S_ 1 1#1
  let main_v27 : IVec S_ 1 := (fun x v => Host.reduce IntOp.andi x v reducesTo_S64x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  fn_part2 (F := F) main_arg1 main_v33

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) (main_arg6 : FVec F S64x40 .f32) (main_arg7 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S5000x128 : Shape := ⟨2, ![5000, 128]⟩
abbrev S5000x64 : Shape := ⟨2, ![5000, 64]⟩
abbrev S1 : Shape := ⟨1, ![1]⟩
abbrev S1x1 : Shape := ⟨2, ![1, 1]⟩
abbrev S1600000x64 : Shape := ⟨2, ![1600000, 64]⟩
abbrev S6400x64 : Shape := ⟨2, ![6400, 64]⟩
abbrev S6400x1 : Shape := ⟨2, ![6400, 1]⟩
abbrev S1x64 : Shape := ⟨2, ![1, 64]⟩
abbrev S10000x64 : Shape := ⟨2, ![10000, 64]⟩
abbrev S10000x1 : Shape := ⟨2, ![10000, 1]⟩
abbrev S1x40 : Shape := ⟨2, ![1, 40]⟩
abbrev S100000x40 : Shape := ⟨2, ![100000, 40]⟩
abbrev S5000x40 : Shape := ⟨2, ![5000, 40]⟩

abbrev nBuf : Space → Nat
  | .hbm => 135
  | .vmem => 52
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x64, .f32⟩
  | 5 => ⟨S64, .f32⟩
  | 6 => ⟨S64x40, .f32⟩
  | 7 => ⟨S40, .f32⟩
  | 8 => ⟨S1x1600000, .i32⟩
  | 9 => ⟨S1600000, .i32⟩
  | 10 => ⟨S1x1600000, .i32⟩
  | 11 => ⟨S1600000, .i32⟩
  | 12 => ⟨S_, .f32⟩
  | 13 => ⟨S1600000, .f32⟩
  | 14 => ⟨S_, .f32⟩
  | 15 => ⟨S100000, .f32⟩
  | 16 => ⟨S1600000x1, .i32⟩
  | 17 => ⟨S100000, .f32⟩
  | 18 => ⟨S_, .f32⟩
  | 19 => ⟨S100000, .f32⟩
  | 20 => ⟨S100000, .f32⟩
  | 21 => ⟨S100000, .f32⟩
  | 22 => ⟨S100000, .f32⟩
  | 23 => ⟨S100000x1, .f32⟩
  | 24 => ⟨S100000x128, .bf16⟩
  | 25 => ⟨S128x64, .bf16⟩
  | 26 => ⟨S100000x64, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1, .i32⟩
  | 36 => ⟨S_, .i32⟩
  | 37 => ⟨S1600000x1, .i32⟩
  | 38 => ⟨S1600000x1, .i1⟩
  | 39 => ⟨S1x1, .i32⟩
  | 40 => ⟨S1600000x1, .i32⟩
  | 41 => ⟨S1600000x1, .i1⟩
  | 42 => ⟨S1600000x1, .i1⟩
  | 43 => ⟨S_, .i1⟩
  | 44 => ⟨S1600000, .i1⟩
  | 45 => ⟨S1600000x64, .f32⟩
  | 46 => ⟨S1600000x64, .i1⟩
  | 47 => ⟨S_, .f32⟩
  | 48 => ⟨S1600000x64, .f32⟩
  | 49 => ⟨S1600000x64, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000, .f32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1600000, .f32⟩
  | 68 => ⟨S1600000, .f32⟩
  | 69 => ⟨S1600000x1, .f32⟩
  | 70 => ⟨S1600000x64, .f32⟩
  | 71 => ⟨S_, .f32⟩
  | 72 => ⟨S100000x64, .f32⟩
  | 73 => ⟨S1600000x1, .i32⟩
  | 74 => ⟨S100000x64, .f32⟩
  | 75 => ⟨S1x64, .f32⟩
  | 76 => ⟨S100000x64, .f32⟩
  | 77 => ⟨S100000x64, .bf16⟩
  | 78 => ⟨S64x64, .bf16⟩
  | 79 => ⟨S100000x64, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1, .i32⟩
  | 89 => ⟨S_, .i32⟩
  | 90 => ⟨S1600000x1, .i32⟩
  | 91 => ⟨S1600000x1, .i1⟩
  | 92 => ⟨S1x1, .i32⟩
  | 93 => ⟨S1600000x1, .i32⟩
  | 94 => ⟨S1600000x1, .i1⟩
  | 95 => ⟨S1600000x1, .i1⟩
  | 96 => ⟨S_, .i1⟩
  | 97 => ⟨S1600000, .i1⟩
  | 98 => ⟨S1600000x64, .f32⟩
  | 99 => ⟨S1600000x64, .i1⟩
  | 100 => ⟨S_, .f32⟩
  | 101 => ⟨S1600000x64, .f32⟩
  | 102 => ⟨S1600000x64, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000, .f32⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S1600000, .f32⟩
  | 121 => ⟨S1600000, .f32⟩
  | 122 => ⟨S1600000x1, .f32⟩
  | 123 => ⟨S1600000x64, .f32⟩
  | 124 => ⟨S_, .f32⟩
  | 125 => ⟨S100000x64, .f32⟩
  | 126 => ⟨S1600000x1, .i32⟩
  | 127 => ⟨S100000x64, .f32⟩
  | _ => ⟨S100000x128, .f32⟩

abbrev hbmTy0_1 (i : Nat) : BufTy := match i % 128 with
  | 0 => ⟨S1x64, .f32⟩
  | 1 => ⟨S100000x64, .f32⟩
  | 2 => ⟨S100000x64, .f32⟩
  | 3 => ⟨S100000x64, .bf16⟩
  | 4 => ⟨S64x40, .bf16⟩
  | 5 => ⟨S1x40, .f32⟩
  | 6 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .bf16⟩
  | .local _ .vmem, ⟨1, _⟩ => ⟨S5000x128, .bf16⟩
  | .local _ .vmem, ⟨2, _⟩ => ⟨S128x64, .bf16⟩
  | .local _ .vmem, ⟨3, _⟩ => ⟨S5000x64, .f32⟩
  | .local _ .vmem, ⟨4, _⟩ => ⟨S5000x64, .f32⟩
  | .local _ .vmem, ⟨5, _⟩ => ⟨S6400x64, .f32⟩
  | .local _ .vmem, ⟨6, _⟩ => ⟨S6400x64, .f32⟩
  | .local _ .vmem, ⟨7, _⟩ => ⟨S6400x1, .f32⟩
  | .local _ .vmem, ⟨8, _⟩ => ⟨S6400x1, .f32⟩
  | .local _ .vmem, ⟨9, _⟩ => ⟨S6400x64, .f32⟩
  | .local _ .vmem, ⟨10, _⟩ => ⟨S6400x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x1, .f32⟩
  | .local _ .vmem, ⟨16, _⟩ => ⟨S10000x1, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S5000x64, .bf16⟩
  | .local _ .vmem, ⟨21, _⟩ => ⟨S5000x64, .bf16⟩
  | .local _ .vmem, ⟨22, _⟩ => ⟨S64x64, .bf16⟩
  | .local _ .vmem, ⟨23, _⟩ => ⟨S5000x64, .f32⟩
  | .local _ .vmem, ⟨24, _⟩ => ⟨S5000x64, .f32⟩
  | .local _ .vmem, ⟨25, _⟩ => ⟨S6400x64, .f32⟩
  | .local _ .vmem, ⟨26, _⟩ => ⟨S6400x64, .f32⟩
  | .local _ .vmem, ⟨27, _⟩ => ⟨S6400x1, .f32⟩
  | .local _ .vmem, ⟨28, _⟩ => ⟨S6400x1, .f32⟩
  | .local _ .vmem, ⟨29, _⟩ => ⟨S6400x64, .f32⟩
  | .local _ .vmem, ⟨30, _⟩ => ⟨S6400x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x1, .f32⟩
  | .local _ .vmem, ⟨36, _⟩ => ⟨S10000x1, .f32⟩
  | .local _ .vmem, ⟨37, _⟩ => ⟨S1x64, .f32⟩
  | .local _ .vmem, ⟨38, _⟩ => ⟨S10000x64, .f32⟩
  | .local _ .vmem, ⟨39, _⟩ => ⟨S10000x64, .f32⟩
  | .local _ .vmem, ⟨40, _⟩ => ⟨S10000x64, .f32⟩
  | .local _ .vmem, ⟨41, _⟩ => ⟨S10000x64, .f32⟩
  | .local _ .vmem, ⟨42, _⟩ => ⟨S10000x64, .f32⟩
  | .local _ .vmem, ⟨43, _⟩ => ⟨S10000x64, .f32⟩
  | .local _ .vmem, ⟨44, _⟩ => ⟨S10000x64, .f32⟩
  | .local _ .vmem, ⟨45, _⟩ => ⟨S10000x64, .f32⟩
  | .local _ .vmem, ⟨46, _⟩ => ⟨S5000x64, .bf16⟩
  | .local _ .vmem, ⟨47, _⟩ => ⟨S5000x64, .bf16⟩
  | .local _ .vmem, ⟨48, _⟩ => ⟨S64x40, .bf16⟩
  | .local _ .vmem, ⟨49, _⟩ => ⟨S1x40, .f32⟩
  | .local _ .vmem, ⟨50, _⟩ => ⟨S5000x40, .f32⟩
  | .local _ .vmem, ⟨51, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call0_c : Ref sig .tc := ⟨.hbm, 27, rfl⟩
abbrev main_call0_v0 : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_c_1 : Ref sig .tc := ⟨.hbm, 35, rfl⟩
abbrev main_call0_c_2 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_3 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_call0_cst : Ref sig .tc := ⟨.hbm, 47, rfl⟩
abbrev main_call0_v15 : Ref sig .tc := ⟨.hbm, 48, rfl⟩
abbrev main_v16 : Ref sig .tc := ⟨.hbm, 49, rfl⟩
abbrev main_c : Ref sig .tc := ⟨.hbm, 50, rfl⟩
abbrev main_v17 : Ref sig .tc := ⟨.hbm, 51, rfl⟩
abbrev main_v18 : Ref sig .tc := ⟨.hbm, 52, rfl⟩
abbrev main_c_2 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_c_3 : Ref sig .tc := ⟨.hbm, 59, rfl⟩
abbrev main_v24 : Ref sig .tc := ⟨.hbm, 60, rfl⟩
abbrev main_v25 : Ref sig .tc := ⟨.hbm, 61, rfl⟩
abbrev main_c_4 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_cst_5 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_call1_c : Ref sig .tc := ⟨.hbm, 80, rfl⟩
abbrev main_call1_v0 : Ref sig .tc := ⟨.hbm, 81, rfl⟩
abbrev main_call1_v1 : Ref sig .tc := ⟨.hbm, 82, rfl⟩
abbrev main_call1_c_0 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_c_1 : Ref sig .tc := ⟨.hbm, 88, rfl⟩
abbrev main_call1_c_2 : Ref sig .tc := ⟨.hbm, 89, rfl⟩
abbrev main_call1_v6 : Ref sig .tc := ⟨.hbm, 90, rfl⟩
abbrev main_call1_v7 : Ref sig .tc := ⟨.hbm, 91, rfl⟩
abbrev main_call1_v8 : Ref sig .tc := ⟨.hbm, 92, rfl⟩
abbrev main_call1_v9 : Ref sig .tc := ⟨.hbm, 93, rfl⟩
abbrev main_call1_v10 : Ref sig .tc := ⟨.hbm, 94, rfl⟩
abbrev main_call1_v11 : Ref sig .tc := ⟨.hbm, 95, rfl⟩
abbrev main_call1_c_3 : Ref sig .tc := ⟨.hbm, 96, rfl⟩
abbrev main_call1_v12 : Ref sig .tc := ⟨.hbm, 97, rfl⟩
abbrev main_call1_v13 : Ref sig .tc := ⟨.hbm, 98, rfl⟩
abbrev main_call1_v14 : Ref sig .tc := ⟨.hbm, 99, rfl⟩
abbrev main_call1_cst : Ref sig .tc := ⟨.hbm, 100, rfl⟩
abbrev main_call1_v15 : Ref sig .tc := ⟨.hbm, 101, rfl⟩
abbrev main_v42 : Ref sig .tc := ⟨.hbm, 102, rfl⟩
abbrev main_c_6 : Ref sig .tc := ⟨.hbm, 103, rfl⟩
abbrev main_v43 : Ref sig .tc := ⟨.hbm, 104, rfl⟩
abbrev main_v44 : Ref sig .tc := ⟨.hbm, 105, rfl⟩
abbrev main_c_7 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_c_8 : Ref sig .tc := ⟨.hbm, 112, rfl⟩
abbrev main_v50 : Ref sig .tc := ⟨.hbm, 113, rfl⟩
abbrev main_v51 : Ref sig .tc := ⟨.hbm, 114, rfl⟩
abbrev main_c_9 : Ref sig .tc := ⟨.hbm, 115, rfl⟩
abbrev main_v52 : Ref sig .tc := ⟨.hbm, 116, rfl⟩
abbrev main_v53 : Ref sig .tc := ⟨.hbm, 117, rfl⟩
abbrev main_v54 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_v59 : Ref sig .tc := ⟨.hbm, 123, rfl⟩
abbrev main_cst_10 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg2_1 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg4_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg1_1 : Ref sig .tc := ⟨.vmem, 43, rfl⟩
abbrev cc6_stg2_0 : Ref sig .tc := ⟨.vmem, 44, rfl⟩
abbrev cc6_stg2_1 : Ref sig .tc := ⟨.vmem, 45, rfl⟩
abbrev cc7_stg0_0 : Ref sig .tc := ⟨.vmem, 46, rfl⟩
abbrev cc7_stg0_1 : Ref sig .tc := ⟨.vmem, 47, rfl⟩
abbrev cc7_stg1_0 : Ref sig .tc := ⟨.vmem, 48, rfl⟩
abbrev cc7_stg2_0 : Ref sig .tc := ⟨.vmem, 49, rfl⟩
abbrev cc7_stg3_0 : Ref sig .tc := ⟨.vmem, 50, rfl⟩
abbrev cc7_stg3_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem4_0 : DmaSem sig := 18
abbrev cc2_sem4_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem2_1 : DmaSem sig := 36
abbrev cc5_sem3_0 : DmaSem sig := 37
abbrev cc5_sem4_0 : DmaSem sig := 38
abbrev cc5_sem4_1 : DmaSem sig := 39
abbrev cc6_sem0_0 : DmaSem sig := 40
abbrev cc6_sem0_1 : DmaSem sig := 41
abbrev cc6_sem1_0 : DmaSem sig := 42
abbrev cc6_sem1_1 : DmaSem sig := 43
abbrev cc6_sem2_0 : DmaSem sig := 44
abbrev cc6_sem2_1 : DmaSem sig := 45
abbrev cc7_sem0_0 : DmaSem sig := 46
abbrev cc7_sem0_1 : DmaSem sig := 47
abbrev cc7_sem1_0 : DmaSem sig := 48
abbrev cc7_sem2_0 : DmaSem sig := 49
abbrev cc7_sem3_0 : DmaSem sig := 50
abbrev cc7_sem3_1 : DmaSem sig := 51

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6400x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6400x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![250], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S6400x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S6400x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S6400x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S10000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S10000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x40 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x40 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x40 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x64_S5000x64_0_0 : ∀ a, (![0, 0] : Fin 2 → Nat) a + S5000x64.size a ≤ S5000x64.size a
  h_S5000x64 : 0 < S5000x64.numel
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  shapeCasts_S1600000_S1600000x1 : S1600000.ShapeCasts S1600000x1
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  inb_S6400x1_S6400x1_0_0 : ∀ a, (![0, 0] : Fin 2 → Nat) a + S6400x1.size a ≤ S6400x1.size a
  h_S6400x1 : 0 < S6400x1.numel
  shapeCasts_S6400x1_S6400x1 : S6400x1.ShapeCasts S6400x1
  broadcasts_S6400x1_S6400x64 : S6400x1.Broadcasts S6400x64
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S40_S1x40 : S40.ShapeCasts S1x40
  inb_S64x40_S64x40_0_0 : ∀ a, (![0, 0] : Fin 2 → Nat) a + S64x40.size a ≤ S64x40.size a
  h_S64x40 : 0 < S64x40.numel
  shapeCasts_S64x40_S64x40 : S64x40.ShapeCasts S64x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S100000_S1600000x1_S1600000_n_0_0_1_wf : ScatterDims.WF S100000 S1600000x1 S1600000 [] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  gather_S100000_S1600000x1_S1600000_n_0_n_n_0_1_1_wf : GatherDims.WF S100000 S1600000x1 S1600000 [] [0] [] [0] [] 1 ![1]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x40_S5000x40_1_0_0_1_n_n_wf : DotDims.WF S5000x64 S64x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .bf16 = 32 ∨ (Rect.block (s := S100000x128) S5000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .bf16 = 32 ∨ (Rect.block (s := S128x64) S128x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x64.size a ≤ S1600000x64.size a
  hwx1_0 : ∀ i : grid1.Coords, EltTy.bits .f32 = 32 ∨ (Rect.block (s := S1600000x64) S6400x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6400x1.size a ≤ S1600000x1.size a
  hwx1_1 : ∀ i : grid1.Coords, EltTy.bits .f32 = 32 ∨ (Rect.block (s := S1600000x1) S6400x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6400x64.size a ≤ S1600000x64.size a
  hwx1_2 : ∀ i : grid1.Coords, EltTy.bits .f32 = 32 ∨ (Rect.block (s := S1600000x64) S6400x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x64.size a ≤ S100000x64.size a
  hwx2_4 : ∀ i : grid2.Coords, EltTy.bits .f32 = 32 ∨ (Rect.block (s := S100000x64) S10000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .bf16 = 32 ∨ (Rect.block (s := S100000x64) S5000x64.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .bf16 = 32 ∨ (Rect.block (s := S64x64) S64x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S6400x64.size a ≤ S1600000x64.size a
  hwx4_0 : ∀ i : grid4.Coords, EltTy.bits .f32 = 32 ∨ (Rect.block (s := S1600000x64) S6400x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S6400x1.size a ≤ S1600000x1.size a
  hwx4_1 : ∀ i : grid4.Coords, EltTy.bits .f32 = 32 ∨ (Rect.block (s := S1600000x1) S6400x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S6400x64.size a ≤ S1600000x64.size a
  hwx4_2 : ∀ i : grid4.Coords, EltTy.bits .f32 = 32 ∨ (Rect.block (s := S1600000x64) S6400x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S100000x64.size a
  hwx5_1 : ∀ i : grid5.Coords, EltTy.bits .f32 = 32 ∨ (Rect.block (s := S100000x64) S10000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x1.size a ≤ S100000x1.size a
  hwx5_2 : ∀ i : grid5.Coords, EltTy.bits .f32 = 32 ∨ (Rect.block (s := S100000x1) S10000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S10000x64.size a ≤ S100000x64.size a
  hwx5_4 : ∀ i : grid5.Coords, EltTy.bits .f32 = 32 ∨ (Rect.block (s := S100000x64) S10000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x64.size a ≤ S100000x64.size a
  hwx6_1 : ∀ i : grid6.Coords, EltTy.bits .f32 = 32 ∨ (Rect.block (s := S100000x64) S10000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x64.size a ≤ S100000x64.size a
  hwx6_2 : ∀ i : grid6.Coords, EltTy.bits .f32 = 32 ∨ (Rect.block (s := S100000x64) S10000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .bf16 = 32 ∨ (Rect.block (s := S100000x64) S5000x64.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x40.size a ≤ S64x40.size a
  hwx7_1 : ∀ i : grid7.Coords, EltTy.bits .bf16 = 32 ∨ (Rect.block (s := S64x40) S64x40.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x40.size a ≤ S1x40.size a
  hwx7_2 : ∀ i : grid7.Coords, EltTy.bits .f32 = 32 ∨ (Rect.block (s := S1x40) S1x40.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x40.size a ≤ S100000x40.size a
  hwx7_3 : ∀ i : grid7.Coords, EltTy.bits .f32 = 32 ∨ (Rect.block (s := S100000x40) S5000x40.size (cc7_transform_3 i) (hinb7_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v16) S6400x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S6400x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S6400x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v36) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v37) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S10000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v39) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v41) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v42) S6400x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v58) S6400x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v59) S6400x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v62) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v41) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v12) S10000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v63) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v64) S10000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v38) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v64) S10000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v65) S10000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v66) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v67) S64x40.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v68) S1x40.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v69) S5000x40.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S100000x64 : Shape := ⟨2, ![100000, 64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S100000x40 : Shape := ⟨2, ![100000, 40]⟩
abbrev S1x40 : Shape := ⟨2, ![1, 40]⟩

abbrev nBuf : Space → Nat
  | .hbm => 131
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x64, .f32⟩
  | 5 => ⟨S64, .f32⟩
  | 6 => ⟨S64x40, .f32⟩
  | 7 => ⟨S40, .f32⟩
  | 8 => ⟨S1x1600000, .i32⟩
  | 9 => ⟨S1600000, .i32⟩
  | 10 => ⟨S1x1600000, .i32⟩
  | 11 => ⟨S1600000, .i32⟩
  | 12 => ⟨S100000x64, .f32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S100000, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x64, .f32⟩
  | 51 => ⟨S1600000x1, .f32⟩
  | 52 => ⟨S1600000x64, .f32⟩
  | 53 => ⟨S1600000x64, .f32⟩
  | 54 => ⟨S_, .f32⟩
  | 55 => ⟨S100000x64, .f32⟩
  | 56 => ⟨S1600000x1, .i32⟩
  | 57 => ⟨S100000x64, .f32⟩
  | 58 => ⟨S100000, .f32⟩
  | 59 => ⟨S100000x1, .f32⟩
  | 60 => ⟨S100000x64, .f32⟩
  | 61 => ⟨S100000x64, .f32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000x64, .f32⟩
  | 70 => ⟨S_, .f32⟩
  | 71 => ⟨S1600000, .f32⟩
  | 72 => ⟨S_, .f32⟩
  | 73 => ⟨S100000, .f32⟩
  | 74 => ⟨S1600000x1, .i32⟩
  | 75 => ⟨S100000, .f32⟩
  | 76 => ⟨S_, .f32⟩
  | 77 => ⟨S100000, .f32⟩
  | 78 => ⟨S100000, .f32⟩
  | 79 => ⟨S100000, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000, .f32⟩
  | 98 => ⟨S1600000, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x64, .f32⟩
  | 108 => ⟨S1600000x1, .f32⟩
  | 109 => ⟨S1600000x64, .f32⟩
  | 110 => ⟨S1600000x64, .f32⟩
  | 111 => ⟨S_, .f32⟩
  | 112 => ⟨S100000x64, .f32⟩
  | 113 => ⟨S1600000x1, .i32⟩
  | 114 => ⟨S100000x64, .f32⟩
  | 115 => ⟨S100000, .f32⟩
  | 116 => ⟨S100000x1, .f32⟩
  | 117 => ⟨S100000x64, .f32⟩
  | 118 => ⟨S100000x64, .f32⟩
  | 119 => ⟨S100000x64, .f32⟩
  | 120 => ⟨S1x64, .f32⟩
  | 121 => ⟨S100000x64, .f32⟩
  | 122 => ⟨S100000x64, .f32⟩
  | 123 => ⟨S_, .f32⟩
  | 124 => ⟨S100000x64, .f32⟩
  | 125 => ⟨S100000x64, .f32⟩
  | 126 => ⟨S100000x64, .f32⟩
  | 127 => ⟨S100000x40, .f32⟩
  | _ => ⟨S100000x128, .f32⟩

abbrev hbmTy0_1 (i : Nat) : BufTy := match i % 128 with
  | 0 => ⟨S1x40, .f32⟩
  | 1 => ⟨S100000x40, .f32⟩
  | 2 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_c_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_15 : Ref sig .tc := ⟨.hbm, 99, rfl⟩
abbrev main_v72 : Ref sig .tc := ⟨.hbm, 100, rfl⟩
abbrev main_v73 : Ref sig .tc := ⟨.hbm, 101, rfl⟩
abbrev main_c_16 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_17 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_call1_cst : Ref sig .tc := ⟨.hbm, 123, rfl⟩
abbrev main_call1_v0 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  dot_S100000x128_S128x64_S100000x64_1_0_0_1_n_n_wf : DotDims.WF S100000x128 S128x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x40_S100000x40_1_0_0_1_n_n_wf : DotDims.WF S100000x64 S64x40 S100000x40 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.Range.lean ====
/-
  The domain the statement is read on: every source node id is a node.  The edge list's first row, read as
  signed 32-bit integers, lies in [0, 100000) at every edge.
-/
import proofs.«414105_j83975200571652_2_alg».proof.Defs
import proofs.«414105_j83975200571652_2_alg».proof.Proof.Gen.Pre_finite_inputs
import proofs.«414105_j83975200571652_2_alg».proof.Proof.Gen.ReferenceIdeal.Read
import Idealize.ShloMosaic.Lib.ReduceAll
import Idealize.ShloMosaic.Lib.StableHlo.Predicate
import Idealize.ShloMosaic.Lib.ValueIdx

set_option maxRecDepth 16384

noncomputable section

namespace Cert.Range

open Idealize.ShloMosaic Idealize.ShloMosaic.TcCoe

/-- Every entry of the edge list's first row (the reference's stage %1: the row sliced out and reshaped) is, as a
    signed integer, at least 0 and below 100000. -/
def InRange (ei : (⟨Cert.ReferenceIdeal.S2x1600000, .i32⟩ : BufTy).Contents (Elt Ideal)) : Prop :=
  ∀ e : Cert.ReferenceIdeal.S1600000.Idx,
    IntOp.cmpi .sge (Cert.ReferenceIdeal.Read.val_main_v1 (F := Ideal) ei e) 0#32 = 1#1
    ∧ IntOp.cmpi .slt (Cert.ReferenceIdeal.Read.val_main_v1 (F := Ideal) ei e) 100000#32 = 1#1

/-- The scalar shape has exactly one index. -/
instance rng_subsingleton_scalar : Subsingleton Cert.Pre_finite_inputs.S_.Idx :=
  ⟨fun a b => funext fun d => d.elim0⟩

/-- The precondition's last conjunct, read at an edge: the source ids are in range on every core. -/
theorem inRange_of_pre [hPre : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    InRange (m ((c.tc : Thread Cert.KernelIdeal.nD Cert.KernelIdeal.τ).loc Cert.KernelIdeal.main_arg1)) := by
  intro e
  -- the precondition is one bit, the conjunction of its parts; read it at the scalar's index
  have h := congrFun (hpre c) ValueIdx.ix0
  dsimp only [Cert.Pre_finite_inputs.fn, Cert.Pre_finite_inputs.fn_part1, Cert.Pre_finite_inputs.fn_part2] at h
  -- its last conjunct is the conjunction over all edges of (0 ≤ src) ∧ (src < 100000)
  have hall := (IntOp.andi_eq_one.1 h).2
  have he := Host.reduce_andi_all _ _ _ _ _ hall e
  obtain ⟨h0, h1⟩ := IntOp.andi_eq_one.1 he
  exact ⟨h0, h1⟩

end Cert.Range

end
-- ==== Proof.Spec.lean ====
/-
  The five whole-array functions the eight kernel regions compute, stated once over the extended reals,
  index by index, on literal rank-2 shapes.  A dense layer's entry (i, j) is the sum over k of
  A(i,k)·B(k,j); a row scaling multiplies row e of H by the single entry of row e of a one-column
  array; the node update adds the self-loop term H·D (D a one-column array) and a bias row to the
  aggregate and clips at 0; the layer maximum is pointwise.
-/
import Idealize.ShloMosaic.PureOps.Ideal
import Idealize.ShloMosaic.Lib.ValueIdx

noncomputable section

open Idealize.ShloMosaic Idealize.ShloMosaic.ValueIdx

namespace Cert.Gcn

/-- Entry (i, j) of the product of an n×k array with a k×p array. -/
def dense {n k p : Nat} (A : (⟨2, ![n, k]⟩ : Shape).Idx → EReal) (B : (⟨2, ![k, p]⟩ : Shape).Idx → EReal) :
    (⟨2, ![n, p]⟩ : Shape).Idx → EReal :=
  fun i => ∑ j : Fin k, A (ix2 (i 0) j) * B (ix2 j (i 1))

/-- The product with a bias row added to every row. -/
def denseBias {n k p : Nat} (A : (⟨2, ![n, k]⟩ : Shape).Idx → EReal) (B : (⟨2, ![k, p]⟩ : Shape).Idx → EReal)
    (b : (⟨2, ![1, p]⟩ : Shape).Idx → EReal) : (⟨2, ![n, p]⟩ : Shape).Idx → EReal :=
  fun i => dense A B i + b (ix2 0 (i 1))

/-- Row e of H multiplied by the one entry of row e of C. -/
def scaleRows {e d : Nat} (H : (⟨2, ![e, d]⟩ : Shape).Idx → EReal) (C : (⟨2, ![e, 1]⟩ : Shape).Idx → EReal) :
    (⟨2, ![e, d]⟩ : Shape).Idx → EReal :=
  fun i => H i * C (ix2 (i 0) 0)

/-- The node update: aggregate plus self-loop term plus bias row, clipped at 0. -/
def combine {n d : Nat} (AGG H : (⟨2, ![n, d]⟩ : Shape).Idx → EReal) (D : (⟨2, ![n, 1]⟩ : Shape).Idx → EReal)
    (b : (⟨2, ![1, d]⟩ : Shape).Idx → EReal) : (⟨2, ![n, d]⟩ : Shape).Idx → EReal :=
  fun i => max (AGG i + H i * D (ix2 (i 0) 0) + b (ix2 0 (i 1))) 0

/-- The pointwise maximum of two arrays. -/
def pmax {n d : Nat} (A B : (⟨2, ![n, d]⟩ : Shape).Idx → EReal) : (⟨2, ![n, d]⟩ : Shape).Idx → EReal :=
  fun i => max (A i) (B i)

end Cert.Gcn

end
-- ==== Proof.Reg0.lean ====
/-
  Region 0 (the first dense layer's product, 20 row blocks of 5000): after the region the output array is the product of the two input arrays as the region found them.
-/
import proofs.«414105_j83975200571652_2_alg».proof.Proof.Gen.KernelIdeal.Frame
import proofs.«414105_j83975200571652_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

/- The TensorCore's buffer contents when the region is entered: a parameter. -/
variable (V : (c : Dev nD) → (b : Ref sig .tc) → Buf (Elt Ideal) ((c : Thread nD τ).loc b))

/-! ## The product at one entry of a block -/

/-- The zero offsets of a whole-block access, however they are spelt. -/
theorem reg0_hz : (![0, 0] : Fin 2 → Nat) = fun _ => 0 := funext fun a => by fin_cases a <;> rfl

/-- The left operand's row is the output's row. -/
theorem reg0_lhs_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- The left operand's column is the contracted coordinate. -/
theorem reg0_lhs_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- The right operand's row is the contracted coordinate. -/
theorem reg0_rhs_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- The right operand's column is the output's column. -/
theorem reg0_rhs_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Entry (p, q) of what the body stores: the sum over k of the left block at (p, k) times the right block at (k, q)
    (the accumulator is the zero splat, and the two casts are to the operands' own shapes). -/
theorem reg0_pay_apply (x0 : Vec Ideal S5000x128 .bf16) (x1 : Vec Ideal S128x64 .bf16) (y : S5000x64.Idx) :
    (k0_pay1 (F := Ideal) x0 x1 y : EReal)
      = ∑ k : Fin 128, (x0 (ix2 (y 0) k) : EReal) * (x1 (ix2 k (y 1)) : EReal) := by
  unfold k0_pay1
  simp only [shapeCast_self]
  show FloatOps.matmul (F := Ideal) dot_S5000x128_S128x64_S5000x64_1_0_0_1_n_n none (x0 : FVec Ideal S5000x128 .bf16) (x1 : FVec Ideal S128x64 .bf16) (constant S5000x64 .f32 0x00000000#32) y = _
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx y ((contrEquiv1 dot_S5000x128_S128x64_S5000x64_1_0_0_1_n_n 128 rfl rfl).symm k) = ix2 (y 0) k := funext fun a => Fin.ext (by
    match a with
    | ⟨0, _⟩ => exact reg0_lhs_0 _ _
    | ⟨1, _⟩ => exact (reg0_lhs_1 _ _).trans hk)
  have er : dot_S5000x128_S128x64_S5000x64_1_0_0_1_n_n.rhsIdx y ((contrEquiv1 dot_S5000x128_S128x64_S5000x64_1_0_0_1_n_n 128 rfl rfl).symm k) = ix2 k (y 1) := funext fun a => Fin.ext (by
    match a with
    | ⟨0, _⟩ => exact (reg0_rhs_0 _ _).trans hk
    | ⟨1, _⟩ => exact reg0_rhs_1 _ _)
  rw [el, er]
  rfl

/-- So, when row p of the left block is row r of an array A and the right block is an array B, entry (p, q) of what the
    body stores is entry (r, q) of the product of A and B. -/
theorem reg0_block_dense (A : S100000x128.Idx → EReal) (B : S128x64.Idx → EReal)
    (x0 : Vec Ideal S5000x128 .bf16) (x1 : Vec Ideal S128x64 .bf16) (y : S5000x64.Idx) (i : S100000x64.Idx)
    (h0 : ∀ k : Fin 128, (x0 (ix2 (y 0) k) : EReal) = A (ix2 (i 0) k))
    (h1 : ∀ k : Fin 128, (x1 (ix2 k (y 1)) : EReal) = B (ix2 k (i 1))) :
    (k0_pay1 (F := Ideal) x0 x1 y : EReal) = Cert.Gcn.dense (n := 100000) (k := 128) (p := 64) A B i := by
  rw [reg0_pay_apply]
  unfold Cert.Gcn.dense
  exact Finset.sum_congr rfl fun k _ => by rw [h0 k, h1 k]

/-! ## From the blocks to the array -/

/-- The printed index maps, decided over the 20 grid points: the left operand's block moves down its array with the
    output's block, one block of 5000 rows per point; the right operand's block is its whole array at every point. -/
theorem reg0_idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point t writes back is block t of the product of the two input arrays. -/
theorem reg0_flushed_eq (c : Dev nD) (t : Fin cfg0.N) :
    (dat0 (F := Ideal) V c).flushed 2 t = ((cfg0.win 2).blk t).view.read (Elt Ideal)
      (Cert.Gcn.dense (n := 100000) (k := 128) (p := 64) (V c main_v13) (V c main_v14)) := by
  show (cfg0.win 2).cut (grid0.coords t) ((dat0 (F := Ideal) V c).after 2 t) = _
  rw [after0_2]
  unfold out0_2
  rw [View.canon_unit_zero reg0_hz]
  simp only [View.ld_unit_zero (S := S5000x128) reg0_hz, View.ld_unit_zero (S := S128x64) reg0_hz]
  obtain ⟨e0, e1, e2, e3, e4, e5⟩ := reg0_idx_facts t
  funext j
  refine reg0_block_dense (V c main_v13) (V c main_v14) (iblk0 V c 0 t) (iblk0 V c 1 t) j (((cfg0.win 2).blk t).view.emb j) (fun k => ?_) (fun k => ?_)
  · show V c main_v13 (((cfg0.win 0).blk t).view.emb (ix2 (j 0) k)) = V c main_v13 (ix2 ((((cfg0.win 2).blk t).view.emb j) 0) k)
    refine congrArg _ (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · show V c main_v14 (((cfg0.win 1).blk t).view.emb (ix2 k (j 1))) = V c main_v14 (ix2 k ((((cfg0.win 2).blk t).view.emb j) 1))
    refine congrArg _ (funext fun a => Fin.ext ?_)
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega

/-- An index of the output array is in point t's block iff each coordinate is in the block's range on its axis. -/
theorem reg0_mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v15).slice (win0_2.rect t)).set ↔ _
  rw [View.set_slice_whole, Rect.mem_set_unit]
  exact Iff.rfl

/-- Every index of the output array is in some point's block: row r is in the block of point r / 5000. -/
theorem reg0_cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 20 := N_0
  have ht : (i 0).val / 5000 < cfg0.N := by show (i 0).val / 5000 < grid0.N; omega
  obtain ⟨e0, e1, e2, e3, e4, e5⟩ := reg0_idx_facts ⟨(i 0).val / 5000, ht⟩
  refine ⟨⟨(i 0).val / 5000, ht⟩, flush0_2 _, ?_⟩
  rw [reg0_mem_blk]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 64 ≤ (i 1).val ∧ (i 1).val < win0_2.index ⟨(i 0).val / 5000, ht⟩ (1 : Fin 2) * 64 + 64
    rw [e5]; omega

/-- After region 0, its output array is the dense product of its two input arrays. -/
theorem final0 (c : Dev nD) :
    (dat0 (F := Ideal) V c).arrAt 2 cfg0.N
      = Cert.Gcn.dense (n := 100000) (k := 128) (p := 64) (V c main_v13) (V c main_v14) :=
  (dat0 (F := Ideal) V c).arrAt_eq_of_cover 2
    (Cert.Gcn.dense (n := 100000) (k := 128) (p := 64) (V c main_v13) (V c main_v14))
    (fun t _ => reg0_flushed_eq V c t) reg0_cover

end Cert.KernelIdeal.Val

end
-- ==== Proof.Reg1.lean ====
/-
  Region 1 (layer 1's edge messages, 250 row blocks of 6400): after the region the output array is the gathered rows scaled by the per-edge coefficient column.
-/
import proofs.«414105_j83975200571652_2_alg».proof.Proof.Gen.KernelIdeal.Frame
import proofs.«414105_j83975200571652_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-block access, as a constant function. -/
theorem reg1_zero_offsets : (![0, 0] : Fin 2 → Nat) = fun _ => 0 := funext fun a => by fin_cases a <;> rfl

/-- The body's payload at row p, lane q of a block: the first block's entry times the column block's entry of row p
    (the two shape casts are the identity, the broadcast repeats the one column along the lanes). -/
theorem reg1_payload_apply (x0 : Vec Ideal S6400x64 .f32) (x1 : Vec Ideal S6400x1 .f32) (p : Fin 6400) (q : Fin 64) :
    k1_pay1 x0 x1 (ix2 p q) = (x0 (ix2 p q) : EReal) * x1 (ix2 p 0) := by
  unfold k1_pay1
  rw [mulf_apply, shapeCast_self, shapeCast_self]
  congr 1
  refine broadcastTo_apply _ _ _ (ix2 p 0) fun a => ?_
  match a with
  | ⟨0, _⟩ => rfl
  | ⟨1, _⟩ => rfl

/-- The row scaling at an index, from the two arrays read at indices that agree with it: the first array at the
    index itself, the column array at the index's row. -/
theorem reg1_scale_at (A : S1600000x64.Idx → EReal) (B : S1600000x1.Idx → EReal) (i0 i2 : S1600000x64.Idx) (i1 : S1600000x1.Idx)
    (h0 : i0 = i2) (h1 : i1 = ix2 (n0 := 1600000) (n1 := 1) (i2 0) 0) : A i0 * B i1 = Cert.Gcn.scaleRows A B i2 := by
  subst h0 h1; rfl

/-- The three windows' block indices over the grid: row block t on the row axis, block 0 on the lane axis. -/
theorem reg1_index_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0 :=
  (by decide +kernel : ∀ t : Fin grid1.N, _)

/- The TensorCore's buffer contents when the region is entered: a parameter. -/
variable (V : (c : Dev nD) → (b : Ref sig .tc) → Buf (Elt Ideal) ((c : Thread nD τ).loc b))

/-- What grid point t writes back is block t of the row-scaled array: rows 6400·t … 6400·t + 6399 of the first input,
    each times its row's entry of the column input. -/
theorem reg1_flushed (c : Dev nD) (t : Fin cfg1.N) :
    (dat1 (F := Ideal) V c).flushed 2 t = ((cfg1.win 2).blk t).view.read (Elt Ideal)
      (Cert.Gcn.scaleRows (e := 1600000) (d := 64) (V c main_v16) (V c main_v32)) := by
  show (cfg1.win 2).cut (grid1.coords t) ((dat1 (F := Ideal) V c).after 2 t) = _
  rw [after1_2]
  unfold out1_2
  rw [View.canon_unit_zero reg1_zero_offsets]
  simp only [View.ld_unit_zero (S := S6400x64) reg1_zero_offsets, View.ld_unit_zero (S := S6400x1) reg1_zero_offsets]
  obtain ⟨e00, e01, e10, e11, e20, e21⟩ := reg1_index_facts t
  funext j
  obtain ⟨p, q, rfl⟩ : ∃ (p : Fin 6400) (q : Fin 64), j = ix2 p q := ⟨j 0, j 1, eq_ix2 j⟩
  refine (reg1_payload_apply (iblk1 V c 0 t) (iblk1 V c 1 t) p q).trans ?_
  -- the first input's block and the output's block sit at the same place of their arrays
  have h0 : (((cfg1.win 0).blk t).view.emb (ix2 p q) : S1600000x64.Idx) = ((cfg1.win 2).blk t).view.emb (ix2 p q) := by
    funext a; apply Fin.ext
    match a with
    | ⟨0, _⟩ => show win1_0.index t (0 : Fin 2) * 6400 + 1 * p.val = win1_2.index t (0 : Fin 2) * 6400 + 1 * p.val; omega
    | ⟨1, _⟩ => show win1_0.index t (1 : Fin 2) * 64 + 1 * q.val = win1_2.index t (1 : Fin 2) * 64 + 1 * q.val; omega
  -- the column input's block entry of row p is the column array's entry of the output index's row
  have h1 : (((cfg1.win 1).blk t).view.emb (ix2 p 0) : S1600000x1.Idx)
      = ix2 (n0 := 1600000) (n1 := 1) ((((cfg1.win 2).blk t).view.emb (ix2 p q) : S1600000x64.Idx) 0) 0 := by
    funext a; apply Fin.ext
    match a with
    | ⟨0, _⟩ => show win1_1.index t (0 : Fin 2) * 6400 + 1 * p.val = win1_2.index t (0 : Fin 2) * 6400 + 1 * p.val; omega
    | ⟨1, _⟩ => show win1_1.index t (1 : Fin 2) * 1 + 1 * 0 = 0; omega
  exact reg1_scale_at (V c main_v16) (V c main_v32) (((cfg1.win 0).blk t).view.emb (ix2 p q)) (((cfg1.win 2).blk t).view.emb (ix2 p q))
    (((cfg1.win 1).blk t).view.emb (ix2 p 0)) h0 h1

/-- An index of the output array is in point t's block iff each coordinate is in the block's range on its axis. -/
theorem reg1_mem_block (t : Fin cfg1.N) (i : S1600000x64.Idx) :
    i ∈ ((cfg1.win 2).blk t).view.set ↔ ∀ a : Fin 2, win1_2.index t a * S6400x64.size a ≤ (i a).val ∧ (i a).val < win1_2.index t a * S6400x64.size a + S6400x64.size a := by
  show i ∈ ((View.whole main_v33).slice (win1_2.rect t)).set ↔ _
  rw [View.set_slice_whole, Rect.mem_set_unit]
  exact Iff.rfl

/-- Every row block is some grid point's. -/
theorem reg1_block_of_row : ∀ r : Fin 250, ∃ t : Fin cfg1.N, win1_2.index t = ![r.val, 0] :=
  (by decide +kernel : ∀ r : Fin 250, ∃ t : Fin grid1.N, win1_2.index t = ![r.val, 0])

/-- Every index of the output array is in the block of the point that holds its row: row r lies in row block r / 6400. -/
theorem reg1_cover (i : S1600000x64.Idx) :
    ∃ t : Fin cfg1.N, (cfg1.win 2).flush t = true ∧ i ∈ ((cfg1.win 2).blk t).view.set := by
  have hi0 : (i 0).val < 1600000 := (i 0).isLt
  have hi1 : (i 1).val < 64 := (i 1).isLt
  obtain ⟨t, ht⟩ := reg1_block_of_row ⟨(i 0).val / 6400, by omega⟩
  have q0 : win1_2.index t (0 : Fin 2) = (i 0).val / 6400 := congrFun ht 0
  have q1 : win1_2.index t (1 : Fin 2) = 0 := congrFun ht 1
  refine ⟨t, flush1_2 t, ?_⟩
  rw [reg1_mem_block]
  intro a
  match a with
  | ⟨0, _⟩ => show win1_2.index t (0 : Fin 2) * 6400 ≤ (i 0).val ∧ (i 0).val < win1_2.index t (0 : Fin 2) * 6400 + 6400; omega
  | ⟨1, _⟩ => show win1_2.index t (1 : Fin 2) * 64 ≤ (i 1).val ∧ (i 1).val < win1_2.index t (1 : Fin 2) * 64 + 64; omega

/-- After region 1, its output array is the first input with row e scaled by entry e of the one-column second input. -/
theorem final1 (c : Dev nD) :
    (dat1 (F := Ideal) V c).arrAt 2 cfg1.N
      = Cert.Gcn.scaleRows (e := 1600000) (d := 64) (V c main_v16) (V c main_v32) :=
  (dat1 (F := Ideal) V c).arrAt_eq_of_cover 2 _ (fun t _ => reg1_flushed V c t) reg1_cover

end Cert.KernelIdeal.Val

end
-- ==== Proof.Reg2.lean ====
/-
  Region 2 (layer 1's node update, 10 row blocks of 10000): after the region the output array is aggregate + self-loop term + bias row, clipped at 0.
-/
import proofs.«414105_j83975200571652_2_alg».proof.Proof.Gen.KernelIdeal.Frame
import proofs.«414105_j83975200571652_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

/- The TensorCore's buffer contents when the region is entered: a parameter. -/
variable (V : (c : Dev nD) → (b : Ref sig .tc) → Buf (Elt Ideal) ((c : Thread nD τ).loc b))

/-- The offsets of a whole-block access are zero on both axes. -/
theorem r2_zero_off : (![0, 0] : Fin 2 → Nat) = fun _ => 0 := funext fun a => by fin_cases a <;> rfl

/-- The one-column block spread over 64 columns reads, at row p and column q, the column's entry of row p. -/
theorem r2_spread_column (x : Vec Ideal S10000x1 .f32) (p : Fin 10000) (q : Fin 64) :
    broadcastTo S10000x64 x broadcasts_S10000x1_S10000x64 (ix2 p q) = x (ix2 p 0) :=
  broadcastTo_apply x broadcasts_S10000x1_S10000x64 (ix2 p q) (ix2 p 0) fun a => by
    match a with
    | ⟨0, _⟩ => rfl
    | ⟨1, _⟩ => rfl

/-- The one-row block spread over 10000 rows reads, at row p and column q, the row's entry of column q. -/
theorem r2_spread_row (x : Vec Ideal S1x64 .f32) (p : Fin 10000) (q : Fin 64) :
    broadcastTo S10000x64 x broadcasts_S1x64_S10000x64 (ix2 p q) = x (ix2 0 q) :=
  broadcastTo_apply x broadcasts_S1x64_S10000x64 (ix2 p q) (ix2 0 q) fun a => by
    match a with
    | ⟨0, _⟩ => rfl
    | ⟨1, _⟩ => rfl

/-- What the body stores at row p, column q of its block: the aggregate entry plus the h entry times the column's
    entry of row p plus the bias entry of column q, clipped at 0. -/
theorem r2_update_apply (x0 x1 : Vec Ideal S10000x64 .f32) (x2 : Vec Ideal S10000x1 .f32) (x3 : Vec Ideal S1x64 .f32)
    (p : Fin 10000) (q : Fin 64) :
    k2_pay1 x0 x1 x2 x3 (ix2 p q) = max (x0 (ix2 p q) + x1 (ix2 p q) * x2 (ix2 p 0) + x3 (ix2 0 q)) 0 := by
  unfold k2_pay1
  simp only [shapeCast_self]
  rw [maximumf_apply, addf_apply, addf_apply, mulf_apply, broadcast_apply, r2_spread_column, r2_spread_row]
  show max _ (Ideal.ofBits .f32 0x00000000#32) = _
  rw [Ideal.ofBits_zero_f32]

/-- The stored value at a block index is the node update at an array index, once each block entry read is the
    array entry the update names. -/
theorem r2_update_at (A H : S100000x64.Idx → EReal) (D : S100000x1.Idx → EReal) (b : S1x64.Idx → EReal)
    (x0 x1 : Vec Ideal S10000x64 .f32) (x2 : Vec Ideal S10000x1 .f32) (x3 : Vec Ideal S1x64 .f32)
    (y : S10000x64.Idx) (i : S100000x64.Idx)
    (h0 : x0 y = A i) (h1 : x1 y = H i) (h2 : x2 (ix2 (y 0) 0) = D (ix2 (i 0) 0)) (h3 : x3 (ix2 0 (y 1)) = b (ix2 0 (i 1))) :
    k2_pay1 x0 x1 x2 x3 y = Cert.Gcn.combine (n := 100000) (d := 64) A H D b i := by
  obtain ⟨p, q, rfl⟩ : ∃ (p : Fin 10000) (q : Fin 64), y = ix2 p q := ⟨y 0, y 1, eq_ix2 y⟩
  rw [r2_update_apply, h0, h1]
  have h2' : x2 (ix2 p 0) = D (ix2 (i 0) 0) := h2
  have h3' : x3 (ix2 0 q) = b (ix2 0 (i 1)) := h3
  rw [h2', h3']
  rfl

/-- The printed index maps, decided over the grid: the aggregate, h and column blocks move with the output block
    down the rows, the bias block stays at (0, 0), and the output's block row is the point's number. -/
theorem r2_index_facts : ∀ t : Fin cfg2.N,
    win2_0.index t (0 : Fin 2) = win2_4.index t (0 : Fin 2) ∧ win2_0.index t (1 : Fin 2) = win2_4.index t (1 : Fin 2)
    ∧ win2_1.index t (0 : Fin 2) = win2_4.index t (0 : Fin 2) ∧ win2_1.index t (1 : Fin 2) = win2_4.index t (1 : Fin 2)
    ∧ win2_2.index t (0 : Fin 2) = win2_4.index t (0 : Fin 2) ∧ win2_2.index t (1 : Fin 2) = 0
    ∧ win2_3.index t (0 : Fin 2) = 0 ∧ win2_3.index t (1 : Fin 2) = 0
    ∧ win2_4.index t (0 : Fin 2) ≤ 9 ∧ win2_4.index t (1 : Fin 2) = 0 :=
  (by decide +kernel : ∀ t : Fin grid2.N, _)

/-- Every block row of the output is some point's. -/
theorem r2_index_onto : ∀ q0 : Fin 10, ∃ t : Fin cfg2.N, win2_4.index t = ![q0.val, 0] :=
  (by decide +kernel : ∀ q0 : Fin 10, ∃ t : Fin grid2.N, win2_4.index t = ![q0.val, 0])

/-- What point t writes back is block t of the node update of the four input arrays. -/
theorem r2_flushed (c : Dev nD) (t : Fin cfg2.N) :
    (dat2 (F := Ideal) V c).flushed 4 t
      = ((cfg2.win 4).blk t).view.read (Elt Ideal)
          (Cert.Gcn.combine (n := 100000) (d := 64) (V c main_v36) (V c main_v15) (V c main_v12) (V c main_v37)) := by
  show (cfg2.win 4).cut (grid2.coords t) ((dat2 V c).after 4 t) = _
  rw [after2_4]
  unfold out2_4
  rw [View.canon_unit_zero r2_zero_off]
  simp only [View.ld_unit_zero (S := S10000x64) r2_zero_off, View.ld_unit_zero (S := S10000x1) r2_zero_off,
    View.ld_unit_zero (S := S1x64) r2_zero_off]
  obtain ⟨e00, e01, e10, e11, e20, e21, e30, e31, e40, e41⟩ := r2_index_facts t
  refine funext fun (y : S10000x64.Idx) => ?_
  show k2_pay1 (iblk2 V c 0 t) (iblk2 V c 1 t) (iblk2 V c 2 t) (iblk2 V c 3 t) y
    = Cert.Gcn.combine (n := 100000) (d := 64) (V c main_v36) (V c main_v15) (V c main_v12) (V c main_v37)
        (((cfg2.win 4).blk t).view.emb y)
  have hy0 : (y 0).val < 10000 := (y 0).isLt
  have hy1 : (y 1).val < 64 := (y 1).isLt
  refine r2_update_at _ _ _ _ _ _ _ _ y _ ?_ ?_ ?_ ?_
  · show V c main_v36 (((cfg2.win 0).blk t).view.emb y) = V c main_v36 (((cfg2.win 4).blk t).view.emb y)
    refine congrArg _ (funext fun a => Fin.ext ?_)
    match a with
    | ⟨0, _⟩ => show win2_0.index t (0 : Fin 2) * 10000 + 1 * (y 0).val = win2_4.index t (0 : Fin 2) * 10000 + 1 * (y 0).val; omega
    | ⟨1, _⟩ => show win2_0.index t (1 : Fin 2) * 64 + 1 * (y 1).val = win2_4.index t (1 : Fin 2) * 64 + 1 * (y 1).val; omega
  · show V c main_v15 (((cfg2.win 1).blk t).view.emb y) = V c main_v15 (((cfg2.win 4).blk t).view.emb y)
    refine congrArg _ (funext fun a => Fin.ext ?_)
    match a with
    | ⟨0, _⟩ => show win2_1.index t (0 : Fin 2) * 10000 + 1 * (y 0).val = win2_4.index t (0 : Fin 2) * 10000 + 1 * (y 0).val; omega
    | ⟨1, _⟩ => show win2_1.index t (1 : Fin 2) * 64 + 1 * (y 1).val = win2_4.index t (1 : Fin 2) * 64 + 1 * (y 1).val; omega
  · show V c main_v12 (((cfg2.win 2).blk t).view.emb (ix2 (y 0) 0)) = V c main_v12 (ix2 ((((cfg2.win 4).blk t).view.emb y) 0) 0)
    refine congrArg _ (funext fun a => Fin.ext ?_)
    match a with
    | ⟨0, _⟩ => show win2_2.index t (0 : Fin 2) * 10000 + 1 * (y 0).val = win2_4.index t (0 : Fin 2) * 10000 + 1 * (y 0).val; omega
    | ⟨1, _⟩ => show win2_2.index t (1 : Fin 2) * 1 + 1 * 0 = 0; omega
  · show V c main_v37 (((cfg2.win 3).blk t).view.emb (ix2 0 (y 1))) = V c main_v37 (ix2 0 ((((cfg2.win 4).blk t).view.emb y) 1))
    refine congrArg _ (funext fun a => Fin.ext ?_)
    match a with
    | ⟨0, _⟩ => show win2_3.index t (0 : Fin 2) * 1 + 1 * 0 = 0; omega
    | ⟨1, _⟩ => show win2_3.index t (1 : Fin 2) * 64 + 1 * (y 1).val = win2_4.index t (1 : Fin 2) * 64 + 1 * (y 1).val; omega

/-- An index of the output array is in point t's block iff each coordinate is in the block's range on its axis. -/
theorem r2_mem_blk (t : Fin cfg2.N) (i : S100000x64.Idx) :
    i ∈ ((cfg2.win 4).blk t).view.set ↔ ∀ a : Fin 2, win2_4.index t a * S10000x64.size a ≤ (i a).val ∧ (i a).val < win2_4.index t a * S10000x64.size a + S10000x64.size a := by
  show i ∈ ((View.whole main_v38).slice (win2_4.rect t)).set ↔ _
  rw [View.set_slice_whole, Rect.mem_set_unit]
  exact Iff.rfl

/-- Every index of the output array is in the block of the point numbered by its row divided by 10000. -/
theorem r2_cover (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  obtain ⟨t, ht⟩ := r2_index_onto ⟨(i 0).val / 10000, by omega⟩
  have q0 : win2_4.index t (0 : Fin 2) = (i 0).val / 10000 := congrFun ht 0
  have q1 : win2_4.index t (1 : Fin 2) = 0 := congrFun ht 1
  refine ⟨t, flush2_4 t, ?_⟩
  rw [r2_mem_blk]
  intro a
  match a with
  | ⟨0, _⟩ => show win2_4.index t (0 : Fin 2) * 10000 ≤ (i 0).val ∧ (i 0).val < win2_4.index t (0 : Fin 2) * 10000 + 10000; omega
  | ⟨1, _⟩ => show win2_4.index t (1 : Fin 2) * 64 ≤ (i 1).val ∧ (i 1).val < win2_4.index t (1 : Fin 2) * 64 + 64; omega

/-- After region 2, its output array is the node update of its four input arrays. -/
theorem final2 (c : Dev nD) :
    (dat2 (F := Ideal) V c).arrAt 4 cfg2.N
      = Cert.Gcn.combine (n := 100000) (d := 64) (V c main_v36) (V c main_v15) (V c main_v12) (V c main_v37) :=
  (dat2 (F := Ideal) V c).arrAt_eq_of_cover 4
    (Cert.Gcn.combine (n := 100000) (d := 64) (V c main_v36) (V c main_v15) (V c main_v12) (V c main_v37))
    (fun t _ => r2_flushed V c t) r2_cover

end Cert.KernelIdeal.Val

end
-- ==== Proof.Reg3.lean ====
/-
  Region 3 (the second dense layer's product, 20 row blocks of 5000): after the region the output array is the product of the two input arrays as the region found them.
-/
import proofs.«414105_j83975200571652_2_alg».proof.Proof.Gen.KernelIdeal.Frame
import proofs.«414105_j83975200571652_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

/- The TensorCore's buffer contents when the region is entered: a parameter. -/
variable (V : (c : Dev nD) → (b : Ref sig .tc) → Buf (Elt Ideal) ((c : Thread nD τ).loc b))

/-! ## The product at one entry of a block -/

/-- The zero offsets of a whole-block access, however they are spelt. -/
theorem reg3_hz : (![0, 0] : Fin 2 → Nat) = fun _ => 0 := funext fun a => by fin_cases a <;> rfl

/-- The left operand's row is the output's row. -/
theorem reg3_lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- The left operand's column is the contracted coordinate. -/
theorem reg3_lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- The right operand's row is the contracted coordinate. -/
theorem reg3_rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- The right operand's column is the output's column. -/
theorem reg3_rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Entry (p, q) of what the body stores: the sum over k of the left block at (p, k) times the right block at (k, q)
    (the accumulator is the zero splat, and the two casts are to the operands' own shapes). -/
theorem reg3_pay_apply (x0 : Vec Ideal S5000x64 .bf16) (x1 : Vec Ideal S64x64 .bf16) (y : S5000x64.Idx) :
    (k3_pay1 (F := Ideal) x0 x1 y : EReal)
      = ∑ k : Fin 64, (x0 (ix2 (y 0) k) : EReal) * (x1 (ix2 k (y 1)) : EReal) := by
  unfold k3_pay1
  simp only [shapeCast_self]
  show FloatOps.matmul (F := Ideal) dot_S5000x64_S64x64_S5000x64_1_0_0_1_n_n none (x0 : FVec Ideal S5000x64 .bf16) (x1 : FVec Ideal S64x64 .bf16) (constant S5000x64 .f32 0x00000000#32) y = _
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx y ((contrEquiv1 dot_S5000x64_S64x64_S5000x64_1_0_0_1_n_n 64 rfl rfl).symm k) = ix2 (y 0) k := funext fun a => Fin.ext (by
    match a with
    | ⟨0, _⟩ => exact reg3_lhs_0 _ _
    | ⟨1, _⟩ => exact (reg3_lhs_1 _ _).trans hk)
  have er : dot_S5000x64_S64x64_S5000x64_1_0_0_1_n_n.rhsIdx y ((contrEquiv1 dot_S5000x64_S64x64_S5000x64_1_0_0_1_n_n 64 rfl rfl).symm k) = ix2 k (y 1) := funext fun a => Fin.ext (by
    match a with
    | ⟨0, _⟩ => exact (reg3_rhs_0 _ _).trans hk
    | ⟨1, _⟩ => exact reg3_rhs_1 _ _)
  rw [el, er]
  rfl

/-- So, when row p of the left block is row r of an array A and the right block is an array B, entry (p, q) of what the
    body stores is entry (r, q) of the product of A and B. -/
theorem reg3_block_dense (A : S100000x64.Idx → EReal) (B : S64x64.Idx → EReal)
    (x0 : Vec Ideal S5000x64 .bf16) (x1 : Vec Ideal S64x64 .bf16) (y : S5000x64.Idx) (i : S100000x64.Idx)
    (h0 : ∀ k : Fin 64, (x0 (ix2 (y 0) k) : EReal) = A (ix2 (i 0) k))
    (h1 : ∀ k : Fin 64, (x1 (ix2 k (y 1)) : EReal) = B (ix2 k (i 1))) :
    (k3_pay1 (F := Ideal) x0 x1 y : EReal) = Cert.Gcn.dense (n := 100000) (k := 64) (p := 64) A B i := by
  rw [reg3_pay_apply]
  unfold Cert.Gcn.dense
  exact Finset.sum_congr rfl fun k _ => by rw [h0 k, h1 k]

/-! ## From the blocks to the array -/

/-- The printed index maps, decided over the 20 grid points: the left operand's block moves down its array with the
    output's block, one block of 5000 rows per point; the right operand's block is its whole array at every point. -/
theorem reg3_idx_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- What point t writes back is block t of the product of the two input arrays. -/
theorem reg3_flushed_eq (c : Dev nD) (t : Fin cfg3.N) :
    (dat3 (F := Ideal) V c).flushed 2 t = ((cfg3.win 2).blk t).view.read (Elt Ideal)
      (Cert.Gcn.dense (n := 100000) (k := 64) (p := 64) (V c main_v39) (V c main_v40)) := by
  show (cfg3.win 2).cut (grid3.coords t) ((dat3 (F := Ideal) V c).after 2 t) = _
  rw [after3_2]
  unfold out3_2
  rw [View.canon_unit_zero reg3_hz]
  simp only [View.ld_unit_zero (S := S5000x64) reg3_hz, View.ld_unit_zero (S := S64x64) reg3_hz]
  obtain ⟨e0, e1, e2, e3, e4, e5⟩ := reg3_idx_facts t
  funext j
  refine reg3_block_dense (V c main_v39) (V c main_v40) (iblk3 V c 0 t) (iblk3 V c 1 t) j (((cfg3.win 2).blk t).view.emb j) (fun k => ?_) (fun k => ?_)
  · show V c main_v39 (((cfg3.win 0).blk t).view.emb (ix2 (j 0) k)) = V c main_v39 (ix2 ((((cfg3.win 2).blk t).view.emb j) 0) k)
    refine congrArg _ (funext fun a => Fin.ext ?_)
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 64 + 1 * k.val = k.val; omega
  · show V c main_v40 (((cfg3.win 1).blk t).view.emb (ix2 k (j 1))) = V c main_v40 (ix2 k ((((cfg3.win 2).blk t).view.emb j) 1))
    refine congrArg _ (funext fun a => Fin.ext ?_)
    match a with
    | ⟨0, _⟩ => show win3_1.index t (0 : Fin 2) * 64 + 1 * k.val = k.val; omega
    | ⟨1, _⟩ => show win3_1.index t (1 : Fin 2) * 64 + 1 * (j 1).val = win3_2.index t (1 : Fin 2) * 64 + 1 * (j 1).val; omega

/-- An index of the output array is in point t's block iff each coordinate is in the block's range on its axis. -/
theorem reg3_mem_blk (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v41).slice (win3_2.rect t)).set ↔ _
  rw [View.set_slice_whole, Rect.mem_set_unit]
  exact Iff.rfl

/-- Every index of the output array is in some point's block: row r is in the block of point r / 5000. -/
theorem reg3_cover (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : grid3.N = 20 := N_3
  have ht : (i 0).val / 5000 < cfg3.N := by show (i 0).val / 5000 < grid3.N; omega
  obtain ⟨e0, e1, e2, e3, e4, e5⟩ := reg3_idx_facts ⟨(i 0).val / 5000, ht⟩
  refine ⟨⟨(i 0).val / 5000, ht⟩, flush3_2 _, ?_⟩
  rw [reg3_mem_blk]
  intro a
  match a with
  | ⟨0, _⟩ =>
    show win3_2.index ⟨(i 0).val / 5000, ht⟩ (0 : Fin 2) * 5000 ≤ (i 0).val ∧ (i 0).val < win3_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win3_2.index ⟨(i 0).val / 5000, ht⟩ (1 : Fin 2) * 64 ≤ (i 1).val ∧ (i 1).val < win3_2.index ⟨(i 0).val / 5000, ht⟩ (1 : Fin 2) * 64 + 64
    rw [e5]; omega

/-- After region 3, its output array is the dense product of its two input arrays. -/
theorem final3 (c : Dev nD) :
    (dat3 (F := Ideal) V c).arrAt 2 cfg3.N
      = Cert.Gcn.dense (n := 100000) (k := 64) (p := 64) (V c main_v39) (V c main_v40) :=
  (dat3 (F := Ideal) V c).arrAt_eq_of_cover 2
    (Cert.Gcn.dense (n := 100000) (k := 64) (p := 64) (V c main_v39) (V c main_v40))
    (fun t _ => reg3_flushed_eq V c t) reg3_cover

end Cert.KernelIdeal.Val

end
-- ==== Proof.Reg6.lean ====
/-
  Region 6 (the maximum over the two layers, 10 row blocks of 10000): after the region the output array is the pointwise maximum of the two input arrays.
-/
import proofs.«414105_j83975200571652_2_alg».proof.Proof.Gen.KernelIdeal.Frame
import proofs.«414105_j83975200571652_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

/- The TensorCore's buffer contents when the region is entered: a parameter. -/
variable (V : (c : Dev nD) → (b : Ref sig .tc) → Buf (Elt Ideal) ((c : Thread nD τ).loc b))

/-- A whole-block access starts at offset zero on both axes. -/
theorem r6_zero_off : (![0, 0] : Fin 2 → Nat) = fun _ => 0 := funext fun a => by fin_cases a <;> rfl

/-- What the body stores at an index of its block: the larger of the two input blocks' entries there. -/
theorem r6_max_apply (x0 x1 : Vec Ideal S10000x64 .f32) (y : S10000x64.Idx) :
    k6_pay1 x0 x1 y = max (x0 y) (x1 y) := by
  unfold k6_pay1
  simp only [shapeCast_self]
  rw [maximumf_apply]

/-- The stored value at a block index is the pointwise maximum at an array index, once each block entry read is
    the array entry the maximum names. -/
theorem r6_max_at (A B : S100000x64.Idx → EReal) (x0 x1 : Vec Ideal S10000x64 .f32)
    (y : S10000x64.Idx) (i : S100000x64.Idx) (h0 : x0 y = A i) (h1 : x1 y = B i) :
    k6_pay1 x0 x1 y = Cert.Gcn.pmax (n := 100000) (d := 64) A B i := by
  rw [r6_max_apply, h0, h1]
  rfl

/-- The printed index maps, decided over the grid: both input blocks move with the output block down the rows,
    and the output's block row is below 10 with block column 0. -/
theorem r6_index_facts : ∀ t : Fin cfg6.N,
    win6_0.index t (0 : Fin 2) = win6_2.index t (0 : Fin 2) ∧ win6_0.index t (1 : Fin 2) = win6_2.index t (1 : Fin 2)
    ∧ win6_1.index t (0 : Fin 2) = win6_2.index t (0 : Fin 2) ∧ win6_1.index t (1 : Fin 2) = win6_2.index t (1 : Fin 2)
    ∧ win6_2.index t (0 : Fin 2) ≤ 9 ∧ win6_2.index t (1 : Fin 2) = 0 :=
  (by decide +kernel : ∀ t : Fin grid6.N, _)

/-- Every block row of the output is some point's. -/
theorem r6_index_onto : ∀ q0 : Fin 10, ∃ t : Fin cfg6.N, win6_2.index t = ![q0.val, 0] :=
  (by decide +kernel : ∀ q0 : Fin 10, ∃ t : Fin grid6.N, win6_2.index t = ![q0.val, 0])

/-- What point t writes back is block t of the pointwise maximum of the two input arrays. -/
theorem r6_flushed (c : Dev nD) (t : Fin cfg6.N) :
    (dat6 (F := Ideal) V c).flushed 2 t
      = ((cfg6.win 2).blk t).view.read (Elt Ideal)
          (Cert.Gcn.pmax (n := 100000) (d := 64) (V c main_v38) (V c main_v64)) := by
  show (cfg6.win 2).cut (grid6.coords t) ((dat6 V c).after 2 t) = _
  rw [after6_2]
  unfold out6_2
  rw [View.canon_unit_zero r6_zero_off]
  simp only [View.ld_unit_zero (S := S10000x64) r6_zero_off]
  obtain ⟨e00, e01, e10, e11, e20, e21⟩ := r6_index_facts t
  refine funext fun (y : S10000x64.Idx) => ?_
  show k6_pay1 (iblk6 V c 0 t) (iblk6 V c 1 t) y
    = Cert.Gcn.pmax (n := 100000) (d := 64) (V c main_v38) (V c main_v64) (((cfg6.win 2).blk t).view.emb y)
  have hy0 : (y 0).val < 10000 := (y 0).isLt
  have hy1 : (y 1).val < 64 := (y 1).isLt
  refine r6_max_at _ _ _ _ y _ ?_ ?_
  · show V c main_v38 (((cfg6.win 0).blk t).view.emb y) = V c main_v38 (((cfg6.win 2).blk t).view.emb y)
    refine congrArg _ (funext fun a => Fin.ext ?_)
    match a with
    | ⟨0, _⟩ => show win6_0.index t (0 : Fin 2) * 10000 + 1 * (y 0).val = win6_2.index t (0 : Fin 2) * 10000 + 1 * (y 0).val; omega
    | ⟨1, _⟩ => show win6_0.index t (1 : Fin 2) * 64 + 1 * (y 1).val = win6_2.index t (1 : Fin 2) * 64 + 1 * (y 1).val; omega
  · show V c main_v64 (((cfg6.win 1).blk t).view.emb y) = V c main_v64 (((cfg6.win 2).blk t).view.emb y)
    refine congrArg _ (funext fun a => Fin.ext ?_)
    match a with
    | ⟨0, _⟩ => show win6_1.index t (0 : Fin 2) * 10000 + 1 * (y 0).val = win6_2.index t (0 : Fin 2) * 10000 + 1 * (y 0).val; omega
    | ⟨1, _⟩ => show win6_1.index t (1 : Fin 2) * 64 + 1 * (y 1).val = win6_2.index t (1 : Fin 2) * 64 + 1 * (y 1).val; omega

/-- An index of the output array is in point t's block iff each coordinate is in the block's range on its axis. -/
theorem r6_mem_blk (t : Fin cfg6.N) (i : S100000x64.Idx) :
    i ∈ ((cfg6.win 2).blk t).view.set ↔ ∀ a : Fin 2, win6_2.index t a * S10000x64.size a ≤ (i a).val ∧ (i a).val < win6_2.index t a * S10000x64.size a + S10000x64.size a := by
  show i ∈ ((View.whole main_v65).slice (win6_2.rect t)).set ↔ _
  rw [View.set_slice_whole, Rect.mem_set_unit]
  exact Iff.rfl

/-- Every index of the output array is in the block of the point numbered by its row divided by 10000. -/
theorem r6_cover (i : S100000x64.Idx) :
    ∃ t : Fin cfg6.N, (cfg6.win 2).flush t = true ∧ i ∈ ((cfg6.win 2).blk t).view.set := by
  have hi0 : (i 0).val < 100000 := (i 0).isLt
  have hi1 : (i 1).val < 64 := (i 1).isLt
  obtain ⟨t, ht⟩ := r6_index_onto ⟨(i 0).val / 10000, by omega⟩
  have q0 : win6_2.index t (0 : Fin 2) = (i 0).val / 10000 := congrFun ht 0
  have q1 : win6_2.index t (1 : Fin 2) = 0 := congrFun ht 1
  refine ⟨t, flush6_2 t, ?_⟩
  rw [r6_mem_blk]
  intro a
  match a with
  | ⟨0, _⟩ => show win6_2.index t (0 : Fin 2) * 10000 ≤ (i 0).val ∧ (i 0).val < win6_2.index t (0 : Fin 2) * 10000 + 10000; omega
  | ⟨1, _⟩ => show win6_2.index t (1 : Fin 2) * 64 ≤ (i 1).val ∧ (i 1).val < win6_2.index t (1 : Fin 2) * 64 + 64; omega

/-- After region 6, its output array is the pointwise maximum of its two input arrays. -/
theorem final6 (c : Dev nD) :
    (dat6 (F := Ideal) V c).arrAt 2 cfg6.N
      = Cert.Gcn.pmax (n := 100000) (d := 64) (V c main_v38) (V c main_v64) :=
  (dat6 (F := Ideal) V c).arrAt_eq_of_cover 2
    (Cert.Gcn.pmax (n := 100000) (d := 64) (V c main_v38) (V c main_v64))
    (fun t _ => r6_flushed V c t) r6_cover

end Cert.KernelIdeal.Val

end
-- ==== Proof.Reg7.lean ====
/-
  Region 7 (the classifier: product plus bias row, 20 row blocks of 5000): after the region the output array is the biased product of the input arrays as the region found them.
-/
import proofs.«414105_j83975200571652_2_alg».proof.Proof.Gen.KernelIdeal.Frame
import proofs.«414105_j83975200571652_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

/- The TensorCore's buffer contents when the region is entered: a parameter. -/
variable (V : (c : Dev nD) → (b : Ref sig .tc) → Buf (Elt Ideal) ((c : Thread nD τ).loc b))

/-! ## The product plus the bias row at one entry of a block -/

/-- The zero offsets of a whole-block access, however they are spelt. -/
theorem reg7_hz : (![0, 0] : Fin 2 → Nat) = fun _ => 0 := funext fun a => by fin_cases a <;> rfl

/-- The left operand's row is the output's row. -/
theorem reg7_lhs_0 (i : S5000x40.Idx) (q : dot_S5000x64_S64x40_S5000x40_1_0_0_1_n_n.contr.Idx) :
    (dot_S5000x64_S64x40_S5000x40_1_0_0_1_n_n.lhsIdx i q 0).val = (i 0).val := by
  unfold DotDims.lhsIdx
  rw [dif_neg (show ¬(0 : Fin S5000x64.rank) ∈ dot_S5000x64_S64x40_S5000x40_1_0_0_1_n_n.lhsBatch by decide), dif_pos (show (0 : Fin S5000x64.rank) ∈ dot_S5000x64_S64x40_S5000x40_1_0_0_1_n_n.lhsNonContracting by decide)]
  rfl
/-- The left operand's column is the contracted coordinate. -/
theorem reg7_lhs_1 (i : S5000x40.Idx) (q : dot_S5000x64_S64x40_S5000x40_1_0_0_1_n_n.contr.Idx) :
    (dot_S5000x64_S64x40_S5000x40_1_0_0_1_n_n.lhsIdx i q 1).val = (q ⟨0, by decide⟩).val :=
  dot_S5000x64_S64x40_S5000x40_1_0_0_1_n_n.lhsIdx_val_of_single rfl i q
/-- The right operand's row is the contracted coordinate. -/
theorem reg7_rhs_0 (i : S5000x40.Idx) (q : dot_S5000x64_S64x40_S5000x40_1_0_0_1_n_n.contr.Idx) :
    (dot_S5000x64_S64x40_S5000x40_1_0_0_1_n_n.rhsIdx i q 0).val = (q ⟨0, by decide⟩).val :=
  dot_S5000x64_S64x40_S5000x40_1_0_0_1_n_n.rhsIdx_val_of_single rfl i q
/-- The right operand's column is the output's column. -/
theorem reg7_rhs_1 (i : S5000x40.Idx) (q : dot_S5000x64_S64x40_S5000x40_1_0_0_1_n_n.contr.Idx) :
    (dot_S5000x64_S64x40_S5000x40_1_0_0_1_n_n.rhsIdx i q 1).val = (i 1).val := by
  unfold DotDims.rhsIdx
  rw [dif_neg (show ¬(1 : Fin S64x40.rank) ∈ dot_S5000x64_S64x40_S5000x40_1_0_0_1_n_n.rhsBatch by decide), dif_pos (show (1 : Fin S64x40.rank) ∈ dot_S5000x64_S64x40_S5000x40_1_0_0_1_n_n.rhsNonContracting by decide)]
  rfl

/-- Entry (p, q) of the product the body forms: the sum over k of the left block at (p, k) times the right block at
    (k, q) (the accumulator is the zero splat). -/
theorem reg7_matmul_apply (x0 : FVec Ideal S5000x64 .bf16) (x1 : FVec Ideal S64x40 .bf16) (y : S5000x40.Idx) :
    (FloatOps.matmul (F := Ideal) dot_S5000x64_S64x40_S5000x40_1_0_0_1_n_n none x0 x1 (constant S5000x40 .f32 0x00000000#32) y : EReal)
      = ∑ k : Fin 64, (x0 (ix2 (y 0) k) : EReal) * (x1 (ix2 k (y 1)) : EReal) := by
  rw [Ideal.matmul_constant_zero_apply, ← Equiv.sum_comp (contrEquiv1 dot_S5000x64_S64x40_S5000x40_1_0_0_1_n_n 64 rfl rfl).symm]
  refine Finset.sum_congr rfl fun k _ => ?_
  have hk := contrEquiv1_symm_val dot_S5000x64_S64x40_S5000x40_1_0_0_1_n_n 64 rfl rfl k
  have el : dot_S5000x64_S64x40_S5000x40_1_0_0_1_n_n.lhsIdx y ((contrEquiv1 dot_S5000x64_S64x40_S5000x40_1_0_0_1_n_n 64 rfl rfl).symm k) = ix2 (y 0) k := funext fun a => Fin.ext (by
    match a with
    | ⟨0, _⟩ => exact reg7_lhs_0 _ _
    | ⟨1, _⟩ => exact (reg7_lhs_1 _ _).trans hk)
  have er : dot_S5000x64_S64x40_S5000x40_1_0_0_1_n_n.rhsIdx y ((contrEquiv1 dot_S5000x64_S64x40_S5000x40_1_0_0_1_n_n 64 rfl rfl).symm k) = ix2 k (y 1) := funext fun a => Fin.ext (by
    match a with
    | ⟨0, _⟩ => exact (reg7_rhs_0 _ _).trans hk
    | ⟨1, _⟩ => exact reg7_rhs_1 _ _)
  rw [el, er]
  rfl

/-- Entry (p, q) of the one-row block laid along every row is the row's entry (0, q). -/
theorem reg7_bias_apply (x2 : S1x40.Idx → EReal) (y : S5000x40.Idx) :
    broadcastTo S5000x40 x2 broadcasts_S1x40_S5000x40 y = x2 (ix2 (0 : Fin 1) (y 1)) :=
  broadcastTo_apply x2 broadcasts_S1x40_S5000x40 y (ix2 (0 : Fin 1) (y 1)) (fun a => by
    match a with
    | ⟨0, _⟩ => rfl
    | ⟨1, _⟩ =>
      show (y 1).val = if (40 : Nat) = 1 then 0 else (y 1).val
      rw [if_neg (by decide)])

/-- Entry (p, q) of what the body stores: the product's entry plus the bias row's entry q (the three casts are to the
    operands' own shapes). -/
theorem reg7_pay_apply (x0 : Vec Ideal S5000x64 .bf16) (x1 : Vec Ideal S64x40 .bf16) (x2 : Vec Ideal S1x40 .f32) (y : S5000x40.Idx) :
    (k7_pay1 (F := Ideal) x0 x1 x2 y : EReal)
      = (∑ k : Fin 64, (x0 (ix2 (y 0) k) : EReal) * (x1 (ix2 k (y 1)) : EReal)) + (x2 (ix2 (0 : Fin 1) (y 1)) : EReal) := by
  unfold k7_pay1
  simp only [shapeCast_self]
  show (FloatOps.matmul (F := Ideal) dot_S5000x64_S64x40_S5000x40_1_0_0_1_n_n none (x0 : FVec Ideal S5000x64 .bf16) (x1 : FVec Ideal S64x40 .bf16) (constant S5000x40 .f32 0x00000000#32) y : EReal)
      + (broadcastTo S5000x40 (x2 : S1x40.Idx → EReal) broadcasts_S1x40_S5000x40 y : EReal) = _
  rw [reg7_matmul_apply, reg7_bias_apply]

/-- So, when row p of the left block is row r of an array A, the right block is an array B and the one-row block is an
    array b, entry (p, q) of what the body stores is entry (r, q) of the product of A and B plus b's entry q. -/
theorem reg7_block_denseBias (A : S100000x64.Idx → EReal) (B : S64x40.Idx → EReal) (b : S1x40.Idx → EReal)
    (x0 : Vec Ideal S5000x64 .bf16) (x1 : Vec Ideal S64x40 .bf16) (x2 : Vec Ideal S1x40 .f32) (y : S5000x40.Idx) (i : S100000x40.Idx)
    (h0 : ∀ k : Fin 64, (x0 (ix2 (y 0) k) : EReal) = A (ix2 (i 0) k))
    (h1 : ∀ k : Fin 64, (x1 (ix2 k (y 1)) : EReal) = B (ix2 k (i 1)))
    (h2 : (x2 (ix2 (0 : Fin 1) (y 1)) : EReal) = b (ix2 0 (i 1))) :
    (k7_pay1 (F := Ideal) x0 x1 x2 y : EReal) = Cert.Gcn.denseBias (n := 100000) (k := 64) (p := 40) A B b i := by
  rw [reg7_pay_apply, h2]
  unfold Cert.Gcn.denseBias Cert.Gcn.dense
  exact congrArg (· + b (ix2 0 (i 1))) (Finset.sum_congr rfl fun k _ => by rw [h0 k, h1 k])

/-! ## From the blocks to the array -/

/-- The printed index maps, decided over the 20 grid points: the left operand's block moves down its array with the
    output's block, one block of 5000 rows per point; the right operand's block and the bias row's block are their
    whole arrays at every point. -/
theorem reg7_idx_facts : ∀ t : Fin cfg7.N, win7_0.index t (0 : Fin 2) = win7_3.index t (0 : Fin 2)
    ∧ win7_0.index t (1 : Fin 2) = 0
    ∧ win7_1.index t (0 : Fin 2) = 0
    ∧ win7_1.index t (1 : Fin 2) = 0
    ∧ win7_2.index t (0 : Fin 2) = 0
    ∧ win7_2.index t (1 : Fin 2) = 0
    ∧ win7_3.index t (0 : Fin 2) = t.val
    ∧ win7_3.index t (1 : Fin 2) = 0 :=
  (by decide +kernel : ∀ t : Fin grid7.N, _)

/-- What point t writes back is block t of the product of the first two input arrays plus the bias row. -/
theorem reg7_flushed_eq (c : Dev nD) (t : Fin cfg7.N) :
    (dat7 (F := Ideal) V c).flushed 3 t = ((cfg7.win 3).blk t).view.read (Elt Ideal)
      (Cert.Gcn.denseBias (n := 100000) (k := 64) (p := 40) (V c main_v66) (V c main_v67) (V c main_v68)) := by
  show (cfg7.win 3).cut (grid7.coords t) ((dat7 (F := Ideal) V c).after 3 t) = _
  rw [after7_3]
  unfold out7_3
  rw [View.canon_unit_zero reg7_hz]
  simp only [View.ld_unit_zero (S := S5000x64) reg7_hz, View.ld_unit_zero (S := S64x40) reg7_hz, View.ld_unit_zero (S := S1x40) reg7_hz]
  obtain ⟨e0, e1, e2, e3, e4, e5, e6, e7⟩ := reg7_idx_facts t
  funext j
  refine reg7_block_denseBias (V c main_v66) (V c main_v67) (V c main_v68) (iblk7 V c 0 t) (iblk7 V c 1 t) (iblk7 V c 2 t) j (((cfg7.win 3).blk t).view.emb j) (fun k => ?_) (fun k => ?_) ?_
  · show V c main_v66 (((cfg7.win 0).blk t).view.emb (ix2 (j 0) k)) = V c main_v66 (ix2 ((((cfg7.win 3).blk t).view.emb j) 0) k)
    refine congrArg _ (funext fun a => Fin.ext ?_)
    match a with
    | ⟨0, _⟩ => show win7_0.index t (0 : Fin 2) * 5000 + 1 * (j 0).val = win7_3.index t (0 : Fin 2) * 5000 + 1 * (j 0).val; omega
    | ⟨1, _⟩ => show win7_0.index t (1 : Fin 2) * 64 + 1 * k.val = k.val; omega
  · show V c main_v67 (((cfg7.win 1).blk t).view.emb (ix2 k (j 1))) = V c main_v67 (ix2 k ((((cfg7.win 3).blk t).view.emb j) 1))
    refine congrArg _ (funext fun a => Fin.ext ?_)
    match a with
    | ⟨0, _⟩ => show win7_1.index t (0 : Fin 2) * 64 + 1 * k.val = k.val; omega
    | ⟨1, _⟩ => show win7_1.index t (1 : Fin 2) * 40 + 1 * (j 1).val = win7_3.index t (1 : Fin 2) * 40 + 1 * (j 1).val; omega
  · show V c main_v68 (((cfg7.win 2).blk t).view.emb (ix2 (0 : Fin 1) (j 1))) = V c main_v68 (ix2 0 ((((cfg7.win 3).blk t).view.emb j) 1))
    refine congrArg _ (funext fun a => Fin.ext ?_)
    match a with
    | ⟨0, _⟩ => show win7_2.index t (0 : Fin 2) * 1 + 1 * 0 = 0; omega
    | ⟨1, _⟩ => show win7_2.index t (1 : Fin 2) * 40 + 1 * (j 1).val = win7_3.index t (1 : Fin 2) * 40 + 1 * (j 1).val; omega

/-- An index of the output array is in point t's block iff each coordinate is in the block's range on its axis. -/
theorem reg7_mem_blk (t : Fin cfg7.N) (i : S100000x40.Idx) :
    i ∈ ((cfg7.win 3).blk t).view.set ↔ ∀ a : Fin 2, win7_3.index t a * S5000x40.size a ≤ (i a).val ∧ (i a).val < win7_3.index t a * S5000x40.size a + S5000x40.size a := by
  show i ∈ ((View.whole main_v69).slice (win7_3.rect t)).set ↔ _
  rw [View.set_slice_whole, Rect.mem_set_unit]
  exact Iff.rfl

/-- Every index of the output array is in some point's block: row r is in the block of point r / 5000. -/
theorem reg7_cover (i : S100000x40.Idx) :
    ∃ t : Fin cfg7.N, (cfg7.win 3).flush t = true ∧ i ∈ ((cfg7.win 3).blk t).view.set := by
  have hi0 : (i 0).val < 100000 := (i 0).isLt
  have hi1 : (i 1).val < 40 := (i 1).isLt
  have hN : grid7.N = 20 := N_7
  have ht : (i 0).val / 5000 < cfg7.N := by show (i 0).val / 5000 < grid7.N; omega
  obtain ⟨e0, e1, e2, e3, e4, e5, e6, e7⟩ := reg7_idx_facts ⟨(i 0).val / 5000, ht⟩
  refine ⟨⟨(i 0).val / 5000, ht⟩, flush7_3 _, ?_⟩
  rw [reg7_mem_blk]
  intro a
  match a with
  | ⟨0, _⟩ =>
    show win7_3.index ⟨(i 0).val / 5000, ht⟩ (0 : Fin 2) * 5000 ≤ (i 0).val ∧ (i 0).val < win7_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win7_3.index ⟨(i 0).val / 5000, ht⟩ (1 : Fin 2) * 40 ≤ (i 1).val ∧ (i 1).val < win7_3.index ⟨(i 0).val / 5000, ht⟩ (1 : Fin 2) * 40 + 40
    rw [e7]; omega

/-- After region 7, its output array is the dense product of its first two input arrays plus the bias row. -/
theorem final7 (c : Dev nD) :
    (dat7 (F := Ideal) V c).arrAt 3 cfg7.N
      = Cert.Gcn.denseBias (n := 100000) (k := 64) (p := 40) (V c main_v66) (V c main_v67) (V c main_v68) :=
  (dat7 (F := Ideal) V c).arrAt_eq_of_cover 3
    (Cert.Gcn.denseBias (n := 100000) (k := 64) (p := 40) (V c main_v66) (V c main_v67) (V c main_v68))
    (fun t _ => reg7_flushed_eq V c t) reg7_cover

end Cert.KernelIdeal.Val

end
-- ==== Proof.RefSpec.lean ====
/-
  The reference's stages as the five whole-array functions: at the extended reals each dense layer of the
  reference is the row-times-column sum, its per-edge messages are the gathered rows scaled by the coefficient
  column, its node update is aggregate + self-loop term + bias row clipped at 0, its output embedding the
  pointwise maximum of the two layers, and its logits the biased product.  The degree normalisation the
  reference computes a second time for layer 2 is the one it computed for layer 1.
-/
import proofs.«414105_j83975200571652_2_alg».proof.Proof.Gen.ReferenceIdeal.Read
import proofs.«414105_j83975200571652_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefSpec

open Cert.ReferenceIdeal Cert.ReferenceIdeal.Gen Cert.ReferenceIdeal.Read Idealize.ShloMosaic Idealize.ShloMosaic.TcCoe
open Idealize.ShloMosaic.ValueIdx

variable (x : (⟨S100000x128, .f32⟩ : BufTy).Contents (Elt Ideal)) (ei : (⟨S2x1600000, .i32⟩ : BufTy).Contents (Elt Ideal))
  (w1 : (⟨S128x64, .f32⟩ : BufTy).Contents (Elt Ideal)) (b1 : (⟨S64, .f32⟩ : BufTy).Contents (Elt Ideal))
  (w2 : (⟨S64x64, .f32⟩ : BufTy).Contents (Elt Ideal)) (b2 : (⟨S64, .f32⟩ : BufTy).Contents (Elt Ideal))
  (wfc : (⟨S64x40, .f32⟩ : BufTy).Contents (Elt Ideal)) (bfc : (⟨S40, .f32⟩ : BufTy).Contents (Elt Ideal))

/-- Layer 1's dense product. -/
theorem dense1 : (val_main_v4 (F := Ideal) x w1) = Cert.Gcn.dense (n := 100000) (k := 128) (p := 64) x w1 := by
  funext i
  rw [val_main_v4_apply]
  unfold Cert.Gcn.dense
  refine Finset.sum_congr rfl fun k _ => ?_
  have el : lidx_main_v4 i k = ix2 (n0 := 100000) (n1 := 128) (i 0) k :=
    funext fun a => Fin.ext (by match a with | ⟨0, _⟩ => rfl | ⟨1, _⟩ => rfl)
  have er : ridx_main_v4 i k = ix2 (n0 := 128) (n1 := 64) k (i 1) :=
    funext fun a => Fin.ext (by match a with | ⟨0, _⟩ => rfl | ⟨1, _⟩ => rfl)
  rw [el, er]

/-- Layer 1's edge messages: the gathered rows scaled by the coefficient column. -/
theorem msg1 : (val_main_v36 (F := Ideal) x ei w1) = Cert.Gcn.scaleRows (e := 1600000) (d := 64) (val_main_v33 (F := Ideal) x ei w1) (val_main_v34 (F := Ideal) ei) := by
  funext i
  have e35 : idx_main_v35 i = ix2 (n0 := 1600000) (n1 := 1) (i 0) 0 :=
    funext fun a => Fin.ext (by match a with | ⟨0, _⟩ => rfl | ⟨1, _⟩ => rfl)
  rw [val_main_v36_apply, val_main_v35_apply, e35]
  rfl

/-- Layer 1's node update. -/
theorem upd1 : (val_main_v48 (F := Ideal) x ei w1 b1) = Cert.Gcn.combine (n := 100000) (d := 64) (val_main_v39 (F := Ideal) x ei w1) (val_main_v4 (F := Ideal) x w1) (val_main_v41 (F := Ideal) ei) (val_main_v45 (F := Ideal) b1) := by
  funext i
  have e42 : idx_main_v42 i = ix2 (n0 := 100000) (n1 := 1) (i 0) 0 :=
    funext fun a => Fin.ext (by match a with | ⟨0, _⟩ => rfl | ⟨1, _⟩ => rfl)
  have e46 : idx_main_v46 i = ix2 (n0 := 1) (n1 := 64) 0 (i 1) :=
    funext fun a => Fin.ext (by match a with | ⟨0, _⟩ => rfl | ⟨1, _⟩ => rfl)
  rw [val_main_v48_apply, val_main_v47_apply, val_main_v44_apply, val_main_v43_apply, val_main_v42_apply,
    val_main_v46_apply, val_main_call0_v0_apply, val_main_call0_cst_apply, e42, e46]
  simp only [Ideal.addf_def, Ideal.mulf_def, Ideal.maximumf_def, Ideal.ofBits_def, Ideal.ofBits_zero_f32]
  rfl

/-- Layer 2's dense product. -/
theorem dense2 : (val_main_v49 (F := Ideal) x ei w1 b1 w2) = Cert.Gcn.dense (n := 100000) (k := 64) (p := 64) (val_main_v48 (F := Ideal) x ei w1 b1) w2 := by
  funext i
  rw [val_main_v49_apply]
  unfold Cert.Gcn.dense
  refine Finset.sum_congr rfl fun k _ => ?_
  have el : lidx_main_v49 i k = ix2 (n0 := 100000) (n1 := 64) (i 0) k :=
    funext fun a => Fin.ext (by match a with | ⟨0, _⟩ => rfl | ⟨1, _⟩ => rfl)
  have er : ridx_main_v49 i k = ix2 (n0 := 64) (n1 := 64) k (i 1) :=
    funext fun a => Fin.ext (by match a with | ⟨0, _⟩ => rfl | ⟨1, _⟩ => rfl)
  rw [el, er]

/-- Layer 2's edge messages. -/
theorem msg2 : (val_main_v81 (F := Ideal) x ei w1 b1 w2) = Cert.Gcn.scaleRows (e := 1600000) (d := 64) (val_main_v78 (F := Ideal) x ei w1 b1 w2) (val_main_v79 (F := Ideal) ei) := by
  funext i
  have e80 : idx_main_v80 i = ix2 (n0 := 1600000) (n1 := 1) (i 0) 0 :=
    funext fun a => Fin.ext (by match a with | ⟨0, _⟩ => rfl | ⟨1, _⟩ => rfl)
  rw [val_main_v81_apply, val_main_v80_apply, e80]
  rfl

/-- Layer 2's node update. -/
theorem upd2 : (val_main_v93 (F := Ideal) x ei w1 b1 w2 b2) = Cert.Gcn.combine (n := 100000) (d := 64) (val_main_v84 (F := Ideal) x ei w1 b1 w2) (val_main_v49 (F := Ideal) x ei w1 b1 w2) (val_main_v86 (F := Ideal) ei) (val_main_v90 (F := Ideal) b2) := by
  funext i
  have e87 : idx_main_v87 i = ix2 (n0 := 100000) (n1 := 1) (i 0) 0 :=
    funext fun a => Fin.ext (by match a with | ⟨0, _⟩ => rfl | ⟨1, _⟩ => rfl)
  have e91 : idx_main_v91 i = ix2 (n0 := 1) (n1 := 64) 0 (i 1) :=
    funext fun a => Fin.ext (by match a with | ⟨0, _⟩ => rfl | ⟨1, _⟩ => rfl)
  rw [val_main_v93_apply, val_main_v92_apply, val_main_v89_apply, val_main_v88_apply, val_main_v87_apply,
    val_main_v91_apply, val_main_call1_v0_apply, val_main_call1_cst_apply, e87, e91]
  simp only [Ideal.addf_def, Ideal.mulf_def, Ideal.maximumf_def, Ideal.ofBits_def, Ideal.ofBits_zero_f32]
  rfl

/-- The embedding: the pointwise maximum of the two layers. -/
theorem emb : (val_main_v94 (F := Ideal) x ei w1 b1 w2 b2) = Cert.Gcn.pmax (n := 100000) (d := 64) (val_main_v48 (F := Ideal) x ei w1 b1) (val_main_v93 (F := Ideal) x ei w1 b1 w2 b2) := by
  funext i
  rw [val_main_v94_apply]
  rfl

/-- The logits: the embedding's product with the classifier weights plus the bias row. -/
theorem logits : (val_main_v98 (F := Ideal) x ei w1 b1 w2 b2 wfc bfc) = Cert.Gcn.denseBias (n := 100000) (k := 64) (p := 40) (val_main_v94 (F := Ideal) x ei w1 b1 w2 b2) wfc (val_main_v96 (F := Ideal) bfc) := by
  funext i
  have e97 : idx_main_v97 i = ix2 (n0 := 1) (n1 := 40) 0 (i 1) :=
    funext fun a => Fin.ext (by match a with | ⟨0, _⟩ => rfl | ⟨1, _⟩ => rfl)
  rw [val_main_v98_apply, val_main_v97_apply, val_main_v95_apply, e97, Ideal.addf_def]
  unfold Cert.Gcn.denseBias Cert.Gcn.dense
  refine congrArg₂ (· + ·) (Finset.sum_congr rfl fun k _ => ?_) rfl
  have el : lidx_main_v95 i k = ix2 (n0 := 100000) (n1 := 64) (i 0) k :=
    funext fun a => Fin.ext (by match a with | ⟨0, _⟩ => rfl | ⟨1, _⟩ => rfl)
  have er : ridx_main_v95 i k = ix2 (n0 := 64) (n1 := 40) k (i 1) :=
    funext fun a => Fin.ext (by match a with | ⟨0, _⟩ => rfl | ⟨1, _⟩ => rfl)
  rw [el, er]

/-- The inverse square root of the degrees, computed again for layer 2, is layer 1's:
    the same operations on the same edge list, the constants being equal words. -/
theorem dis_again : (val_main_v56 (F := Ideal) ei) = (val_main_v11 (F := Ideal) ei) := by
  have h50 : (val_main_v50 (F := Ideal)) = val_main_v5 (F := Ideal) := rfl
  have h51 : (val_main_v51 (F := Ideal)) = val_main_v6 (F := Ideal) := rfl
  have h52 : (val_main_v52 (F := Ideal) ei) = val_main_v7 (F := Ideal) ei := rfl
  have h54 : (val_main_v54 (F := Ideal)) = val_main_v9 (F := Ideal) := rfl
  unfold val_main_v56 val_main_v55 val_main_v53 val_main_v11 val_main_v10 val_main_v8
  rw [h50, h51, h52, h54]

/-- The wrapped source indices of layer 2 are layer 1's. -/
theorem rs_wrapped_src_again : (val_main_v62 (F := Ideal) ei) = (val_main_v17 (F := Ideal) ei) := by
  have h57 : (val_main_v57 (F := Ideal)) = val_main_v12 (F := Ideal) := rfl
  have h59 : (val_main_v59 (F := Ideal)) = val_main_v14 (F := Ideal) := rfl
  unfold val_main_v62 val_main_v61 val_main_v60 val_main_v58 val_main_v17 val_main_v16 val_main_v15 val_main_v13
  rw [h57, h59]

/-- The wrapped target indices of layer 2 are layer 1's. -/
theorem rs_wrapped_dst_again : (val_main_v69 (F := Ideal) ei) = (val_main_v24 (F := Ideal) ei) := by
  have h64 : (val_main_v64 (F := Ideal)) = val_main_v19 (F := Ideal) := rfl
  have h66 : (val_main_v66 (F := Ideal)) = val_main_v21 (F := Ideal) := rfl
  unfold val_main_v69 val_main_v68 val_main_v67 val_main_v65 val_main_v24 val_main_v23 val_main_v22 val_main_v20
  rw [h64, h66]

/-- The per-edge coefficient of layer 2 is layer 1's. -/
theorem rs_coef_again : (val_main_v71 (F := Ideal) ei) = (val_main_v26 (F := Ideal) ei) := by
  unfold val_main_v71 val_main_v63 val_main_v70 val_main_v26 val_main_v18 val_main_v25
  rw [dis_again, rs_wrapped_src_again, rs_wrapped_dst_again]

/-- Layer 2's coefficient column is layer 1's. -/
theorem coefcol_again : (val_main_v79 (F := Ideal) ei) = (val_main_v34 (F := Ideal) ei) := by
  unfold val_main_v79 val_main_v34
  rw [rs_coef_again]

/-- Layer 2's self-loop column is layer 1's. -/
theorem dis2col_again : (val_main_v86 (F := Ideal) ei) = (val_main_v41 (F := Ideal) ei) := by
  unfold val_main_v86 val_main_v85 val_main_v41 val_main_v40
  rw [dis_again]

end Cert.ReferenceIdeal.RefSpec

end
-- ==== Proof.KHostA.lean ====
/-
  The kernel program's plain host stretches, each from an arbitrary starting contents U: what each writes is the reference's stage of the same name when what it reads is. Stretch 0 slices the edge list, computes the degree normalisation and its square as a column, and changes the float format of x and W1 (the identity on extended reals); stretches 2 and 5 scatter-add the messages over the destinations and lay the bias out as a row; stretches 3 and 7 change float formats and lay the classifier bias out as a row.
-/
import proofs.«414105_j83975200571652_2_alg».proof.Proof.Gen.KernelIdeal.Launch
import proofs.«414105_j83975200571652_2_alg».proof.Proof.Gen.ReferenceIdeal.Read
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.ValueLayout

set_option maxRecDepth 16384

noncomputable section

namespace Cert.KernelIdeal.Host

open Cert.KernelIdeal Cert.KernelIdeal.Gen Idealize.ShloMosaic Idealize.ShloMosaic.TcCoe Idealize.ShloMosaic.StableHlo
open Idealize.ShloMosaic.ValueIdx

/- The buffer contents a host stretch starts from: a parameter. -/
variable (U : Valuation τ sig (Elt Ideal))
variable (x : (⟨Cert.ReferenceIdeal.S100000x128, .f32⟩ : BufTy).Contents (Elt Ideal)) (ei : (⟨Cert.ReferenceIdeal.S2x1600000, .i32⟩ : BufTy).Contents (Elt Ideal))
  (w1 : (⟨Cert.ReferenceIdeal.S128x64, .f32⟩ : BufTy).Contents (Elt Ideal)) (b1 : (⟨Cert.ReferenceIdeal.S64, .f32⟩ : BufTy).Contents (Elt Ideal))
  (w2 : (⟨Cert.ReferenceIdeal.S64x64, .f32⟩ : BufTy).Contents (Elt Ideal)) (b2 : (⟨Cert.ReferenceIdeal.S64, .f32⟩ : BufTy).Contents (Elt Ideal))
  (wfc : (⟨Cert.ReferenceIdeal.S64x40, .f32⟩ : BufTy).Contents (Elt Ideal)) (bfc : (⟨Cert.ReferenceIdeal.S40, .f32⟩ : BufTy).Contents (Elt Ideal))

/-! ## Stretch 0 -/
theorem src0 (hei : U (Proc.devRef .tc main_arg1) = ei) : StableHlo.after (hostOps0 (F := Ideal)) U (Proc.devRef .tc main_v1) = (Cert.ReferenceIdeal.Read.val_main_v1 (F := Ideal) ei) := by
  after_results
  rw [hei]
  rfl
theorem dst0 (hei : U (Proc.devRef .tc main_arg1) = ei) : StableHlo.after (hostOps0 (F := Ideal)) U (Proc.devRef .tc main_v3) = (Cert.ReferenceIdeal.Read.val_main_v3 (F := Ideal) ei) := by
  after_results
  rw [hei]
  rfl
/- The degree normalisation: the same scatter-add of ones over the destinations, plus one, then the reciprocal square root, on both sides. -/
theorem dis0 (hei : U (Proc.devRef .tc main_arg1) = ei) : StableHlo.after (hostOps0 (F := Ideal)) U (Proc.devRef .tc main_v10) = (Cert.ReferenceIdeal.Read.val_main_v11 (F := Ideal) ei) := by
  after_results
  rw [hei]
  unfold Cert.ReferenceIdeal.Read.val_main_v11 Cert.ReferenceIdeal.Read.val_main_v10 Cert.ReferenceIdeal.Read.val_main_v9 Cert.ReferenceIdeal.Read.val_main_v8 Cert.ReferenceIdeal.Read.val_main_v7 Cert.ReferenceIdeal.Read.val_main_v6 Cert.ReferenceIdeal.Read.val_main_v5
    Cert.ReferenceIdeal.Read.val_main_cst Cert.ReferenceIdeal.Read.val_main_cst_0 Cert.ReferenceIdeal.Read.val_main_cst_1 Cert.ReferenceIdeal.Read.val_main_v3 Cert.ReferenceIdeal.Read.val_main_v2
  rfl
/- A vector reshaped to a column and the same vector broadcast along axis 0 to a column agree entry by entry: entry (p, 0) of either is entry p of the vector, since p * 1 + 0 = p in row-major order. -/
theorem dis2col0 (hei : U (Proc.devRef .tc main_arg1) = ei) : StableHlo.after (hostOps0 (F := Ideal)) U (Proc.devRef .tc main_v12) = (Cert.ReferenceIdeal.Read.val_main_v41 (F := Ideal) ei) := by
  after_results
  rw [hei]
  funext i
  rw [Cert.ReferenceIdeal.Read.val_main_v41_apply]
  refine (shapeCast_apply _ shapeCasts_S100000_S100000x1 i (Cert.ReferenceIdeal.Read.idx_main_v41 i) (by
    rewrite [Shape.rowMajor_val_two, Shape.rowMajor_val_one]
    have h1 : (i 1).val < 1 := (i 1).isLt
    show (i 0).val = (i 0).val * 1 + (i 1).val
    omega)).trans ?_
  unfold Cert.ReferenceIdeal.Read.val_main_v40 Cert.ReferenceIdeal.Read.val_main_v11 Cert.ReferenceIdeal.Read.val_main_v10 Cert.ReferenceIdeal.Read.val_main_v9 Cert.ReferenceIdeal.Read.val_main_v8 Cert.ReferenceIdeal.Read.val_main_v7 Cert.ReferenceIdeal.Read.val_main_v6 Cert.ReferenceIdeal.Read.val_main_v5
    Cert.ReferenceIdeal.Read.val_main_cst Cert.ReferenceIdeal.Read.val_main_cst_0 Cert.ReferenceIdeal.Read.val_main_cst_1 Cert.ReferenceIdeal.Read.val_main_v3 Cert.ReferenceIdeal.Read.val_main_v2
  rfl
/- A change of float format is the identity on extended reals. -/
theorem xb0 (hx : U (Proc.devRef .tc main_arg0) = x) : StableHlo.after (hostOps0 (F := Ideal)) U (Proc.devRef .tc main_v13) = x := by
  after_results
  rw [hx]
  rfl
theorem w1b0 (hw : U (Proc.devRef .tc main_arg2) = w1) : StableHlo.after (hostOps0 (F := Ideal)) U (Proc.devRef .tc main_v14) = w1 := by
  after_results
  rw [hw]
  rfl

/-! ## Stretch 2 -/
/- The scatter-add of the messages into a zero array at the destinations laid out as a column: the same operation on both sides. -/
theorem agg1 (hmsg : U (Proc.devRef .tc main_v33) = (Cert.ReferenceIdeal.Read.val_main_v36 (F := Ideal) x ei w1)) (hdst : U (Proc.devRef .tc main_v3) = (Cert.ReferenceIdeal.Read.val_main_v3 (F := Ideal) ei)) :
    StableHlo.after (hostOps2 (F := Ideal)) U (Proc.devRef .tc main_v36) = (Cert.ReferenceIdeal.Read.val_main_v39 (F := Ideal) x ei w1) := by
  after_results
  rw [hmsg, hdst]
  unfold Cert.ReferenceIdeal.Read.val_main_v39 Cert.ReferenceIdeal.Read.val_main_v38 Cert.ReferenceIdeal.Read.val_main_v37 Cert.ReferenceIdeal.Read.val_main_cst_7
  rfl
/- A vector reshaped to a row and the same vector broadcast along axis 1 to a row agree entry by entry: entry (0, q) of either is entry q of the vector, since 0 * n + q = q in row-major order. -/
theorem b1row (hb : U (Proc.devRef .tc main_arg3) = b1) : StableHlo.after (hostOps2 (F := Ideal)) U (Proc.devRef .tc main_v37) = (Cert.ReferenceIdeal.Read.val_main_v45 (F := Ideal) b1) := by
  after_results
  rw [hb]
  funext i
  rw [Cert.ReferenceIdeal.Read.val_main_v45_apply]
  exact shapeCast_apply b1 shapeCasts_S64_S1x64 i (Cert.ReferenceIdeal.Read.idx_main_v45 i) (by
    rewrite [Shape.rowMajor_val_two, Shape.rowMajor_val_one]
    have h0 : (i 0).val < 1 := (i 0).isLt
    show (i 1).val = (i 0).val * 64 + (i 1).val
    omega)

/-! ## Stretch 3 -/
theorem h1b (h1v : (⟨Cert.ReferenceIdeal.S100000x64, .f32⟩ : BufTy).Contents (Elt Ideal)) (hh : U (Proc.devRef .tc main_v38) = h1v) :
    StableHlo.after (hostOps3 (F := Ideal)) U (Proc.devRef .tc main_v39) = h1v := by
  after_results
  rw [hh]
  rfl
theorem w2b (hw : U (Proc.devRef .tc main_arg4) = w2) : StableHlo.after (hostOps3 (F := Ideal)) U (Proc.devRef .tc main_v40) = w2 := by
  after_results
  rw [hw]
  rfl

/-! ## Stretch 5 -/
theorem agg2 (hmsg : U (Proc.devRef .tc main_v59) = (Cert.ReferenceIdeal.Read.val_main_v81 (F := Ideal) x ei w1 b1 w2)) (hdst : U (Proc.devRef .tc main_v3) = (Cert.ReferenceIdeal.Read.val_main_v3 (F := Ideal) ei)) :
    StableHlo.after (hostOps5 (F := Ideal)) U (Proc.devRef .tc main_v62) = (Cert.ReferenceIdeal.Read.val_main_v84 (F := Ideal) x ei w1 b1 w2) := by
  after_results
  rw [hmsg, hdst]
  unfold Cert.ReferenceIdeal.Read.val_main_v84 Cert.ReferenceIdeal.Read.val_main_v83 Cert.ReferenceIdeal.Read.val_main_v82 Cert.ReferenceIdeal.Read.val_main_cst_17
  rfl
theorem b2row (hb : U (Proc.devRef .tc main_arg5) = b2) : StableHlo.after (hostOps5 (F := Ideal)) U (Proc.devRef .tc main_v63) = (Cert.ReferenceIdeal.Read.val_main_v90 (F := Ideal) b2) := by
  after_results
  rw [hb]
  funext i
  rw [Cert.ReferenceIdeal.Read.val_main_v90_apply]
  exact shapeCast_apply b2 shapeCasts_S64_S1x64 i (Cert.ReferenceIdeal.Read.idx_main_v90 i) (by
    rewrite [Shape.rowMajor_val_two, Shape.rowMajor_val_one]
    have h0 : (i 0).val < 1 := (i 0).isLt
    show (i 1).val = (i 0).val * 64 + (i 1).val
    omega)

/-! ## Stretch 7 -/
theorem embb (ev : (⟨Cert.ReferenceIdeal.S100000x64, .f32⟩ : BufTy).Contents (Elt Ideal)) (he : U (Proc.devRef .tc main_v65) = ev) :
    StableHlo.after (hostOps7 (F := Ideal)) U (Proc.devRef .tc main_v66) = ev := by
  after_results
  rw [he]
  rfl
theorem wfcb (hw : U (Proc.devRef .tc main_arg6) = wfc) : StableHlo.after (hostOps7 (F := Ideal)) U (Proc.devRef .tc main_v67) = wfc := by
  after_results
  rw [hw]
  rfl
theorem bfcrow (hb : U (Proc.devRef .tc main_arg7) = bfc) : StableHlo.after (hostOps7 (F := Ideal)) U (Proc.devRef .tc main_v68) = (Cert.ReferenceIdeal.Read.val_main_v96 (F := Ideal) bfc) := by
  after_results
  rw [hb]
  funext i
  rw [Cert.ReferenceIdeal.Read.val_main_v96_apply]
  exact shapeCast_apply bfc shapeCasts_S40_S1x40 i (Cert.ReferenceIdeal.Read.idx_main_v96 i) (by
    rewrite [Shape.rowMajor_val_two, Shape.rowMajor_val_one]
    have h0 : (i 0).val < 1 := (i 0).isLt
    show (i 1).val = (i 0).val * 40 + (i 1).val
    omega)

end Cert.KernelIdeal.Host

end
-- ==== Proof.KTakeCut.lean ====
/-
  The two gather stretches read back piece by piece, each piece from an arbitrary starting contents. A stretch computes, per edge e, the source id s e with 100000 added where it is negative (the wrapped index), laid out as a column; whether that wrapped index lies in [0, 99999] (the in-bounds mask, a conjunction over the column's single entry); the rows of the table at the wrapped indices (the gathered rows); and finally, entry by entry, the gathered row where the mask holds and a fixed fill value elsewhere (the final select). The stretch is cut into four short runs of operations; what a run leaves in each buffer a later run reads is one small equation, and the equations chained give the stretch's result as one term of the table and the source ids. The stretch that follows does not write that result, so the same term is what the two stretches in a row leave there. Both layers have the same shape: the first reads the table from main_v15 and writes main_v16, the second reads main_v41 and writes main_v42.
-/
import proofs.«414105_j83975200571652_2_alg».proof.Proof.Gen.KernelIdeal.Launch
import Idealize.ShloMosaic.Lib.StableHlo.Run
import Idealize.ShloMosaic.Lib.Pipeline.Frame
import Idealize.ShloMosaic.PureOps.Ideal

set_option maxRecDepth 16384

noncomputable section

namespace Cert.KernelIdeal.Host

open Cert.KernelIdeal Cert.KernelIdeal.Gen Idealize.ShloMosaic Idealize.ShloMosaic.TcCoe Idealize.ShloMosaic.StableHlo

/- The buffer contents a run of operations starts from: a parameter. -/
variable (W : Valuation τ sig (Elt Ideal))

/-- Row e of the result of a gather stretch, as a function of the table h and the source ids s: row (s e, with 100000 added
    where it is negative) of h where that wrapped id lies in [0, 99999], the fill value elsewhere. -/
def ta_term (h : (⟨S100000x64, .f32⟩ : BufTy).Contents (Elt Ideal)) (s : (⟨S1600000, .i32⟩ : BufTy).Contents (Elt Ideal)) : (⟨S1600000x64, .f32⟩ : BufTy).Contents (Elt Ideal) :=
  select (broadcastInDim S1600000x64 ![0] bcast_S1600000_S1600000x64_0 (Host.reduce IntOp.andi (andi (cmpi .sge (broadcastInDim S1600000x1 ![0] bcast_S1600000_S1600000x1_0 (select (cmpi .slt s (broadcastInDim S1600000 ![] bcast_S_S1600000 (constantI S_ 32 0#32))) (addi s (broadcastInDim S1600000 ![] bcast_S_S1600000 (constantI S_ 32 100000#32))) s)) (broadcastInDim S1600000x1 ![] bcast_S_S1600000x1 (constantI S_ 32 0#32))) (cmpi .sle (broadcastInDim S1600000x1 ![0] bcast_S1600000_S1600000x1_0 (select (cmpi .slt s (broadcastInDim S1600000 ![] bcast_S_S1600000 (constantI S_ 32 0#32))) (addi s (broadcastInDim S1600000 ![] bcast_S_S1600000 (constantI S_ 32 100000#32))) s)) (broadcastInDim S1600000x1 ![0, 1] bcast_S1x1_S1600000x1_0_1 (broadcastInDim S1x1 ![1] bcast_S1_S1x1_1 (constantI S1 32 99999#32))))) (constantI S_ 1 1#1) reducesTo_S1600000x1_S1600000_d1 h_S_))
    (Host.gather gather_S100000x64_S1600000x1_S1600000x64_1_0_n_n_0_1_164 h (broadcastInDim S1600000x1 ![0] bcast_S1600000_S1600000x1_0 (select (cmpi .slt s (broadcastInDim S1600000 ![] bcast_S_S1600000 (constantI S_ 32 0#32))) (addi s (broadcastInDim S1600000 ![] bcast_S_S1600000 (constantI S_ 32 100000#32))) s)))
    (broadcastInDim S1600000x64 ![] bcast_S_S1600000x64 (constant (F := Ideal) S_ .f32 0x7FC00000#32))

/-! ## hostOps1: the four runs -/

/-- Operations 1 to 8: the source id, with 100000 added where it is negative, as a column. -/
def ta_opsA : List (HloOp τ sig (Elt Ideal)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S1600000, .i32⟩) (broadcastInDim S1600000 ![] bcast_S_S1600000),
    StableHlo.TRef.binary (.of main_v1 : StableHlo.TRef sig ⟨S1600000, .i32⟩) (.of main_call0_v0 : StableHlo.TRef sig ⟨S1600000, .i32⟩) (.of main_call0_v1 : StableHlo.TRef sig ⟨S1600000, .i1⟩) (cmpi .slt),
    StableHlo.TRef.nullary (.of main_call0_c_0 : StableHlo.TRef sig ⟨S_, .i32⟩) (constantI S_ 32 100000#32),
    StableHlo.TRef.unary (.of main_call0_c_0 : StableHlo.TRef sig ⟨S_, .i32⟩) (.of main_call0_v2 : StableHlo.TRef sig ⟨S1600000, .i32⟩) (broadcastInDim S1600000 ![] bcast_S_S1600000),
    StableHlo.TRef.binary (.of main_v1 : StableHlo.TRef sig ⟨S1600000, .i32⟩) (.of main_call0_v2 : StableHlo.TRef sig ⟨S1600000, .i32⟩) (.of main_call0_v3 : StableHlo.TRef sig ⟨S1600000, .i32⟩) addi,
    StableHlo.TRef.ternary (.of main_call0_v1 : StableHlo.TRef sig ⟨S1600000, .i1⟩) (.of main_call0_v3 : StableHlo.TRef sig ⟨S1600000, .i32⟩) (.of main_v1 : StableHlo.TRef sig ⟨S1600000, .i32⟩) (.of main_call0_v4 : StableHlo.TRef sig ⟨S1600000, .i32⟩) select,
    StableHlo.TRef.unary main_call0_call0.v0 (.of main_call0_v5 : StableHlo.TRef sig ⟨S1600000x1, .i32⟩) (broadcastInDim S1600000x1 ![0] bcast_S1600000_S1600000x1_0) ]
/-- Operations 9 to 18: whether the wrapped id lies in [0, 99999], per edge. -/
def ta_opsB : List (HloOp τ sig (Elt Ideal)) :=
  [ StableHlo.TRef.nullary (.of main_call0_c_1 : StableHlo.TRef sig ⟨S1, .i32⟩) (constantI S1 32 99999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S1600000x1, .i32⟩) (broadcastInDim S1600000x1 ![] bcast_S_S1600000x1),
    StableHlo.TRef.binary (.of main_call0_v5 : StableHlo.TRef sig ⟨S1600000x1, .i32⟩) (.of main_call0_v6 : StableHlo.TRef sig ⟨S1600000x1, .i32⟩) (.of main_call0_v7 : StableHlo.TRef sig ⟨S1600000x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S1600000x1, .i32⟩) (broadcastInDim S1600000x1 ![0, 1] bcast_S1x1_S1600000x1_0_1),
    StableHlo.TRef.binary (.of main_call0_v5 : StableHlo.TRef sig ⟨S1600000x1, .i32⟩) (.of main_call0_v9 : StableHlo.TRef sig ⟨S1600000x1, .i32⟩) (.of main_call0_v10 : StableHlo.TRef sig ⟨S1600000x1, .i1⟩) (cmpi .sle),
    StableHlo.TRef.binary (.of main_call0_v7 : StableHlo.TRef sig ⟨S1600000x1, .i1⟩) (.of main_call0_v10 : StableHlo.TRef sig ⟨S1600000x1, .i1⟩) (.of main_call0_v11 : StableHlo.TRef sig ⟨S1600000x1, .i1⟩) andi,
    StableHlo.TRef.nullary (.of main_call0_c_3 : StableHlo.TRef sig ⟨S_, .i1⟩) (constantI S_ 1 1#1),
    StableHlo.TRef.binary (.of main_call0_v11 : StableHlo.TRef sig ⟨S1600000x1, .i1⟩) (.of main_call0_c_3 : StableHlo.TRef sig ⟨S_, .i1⟩) (.of main_call0_v12 : StableHlo.TRef sig ⟨S1600000, .i1⟩) (fun x v => Host.reduce IntOp.andi x v reducesTo_S1600000x1_S1600000_d1 h_S_) ]
/-- Operations 19 to 22: the gathered rows, the mask over a row's entries, the fill value. -/
def ta_opsC : List (HloOp τ sig (Elt Ideal)) :=
  [ StableHlo.TRef.binary (.of main_v15 : StableHlo.TRef sig ⟨S100000x64, .f32⟩) (.of main_call0_v5 : StableHlo.TRef sig ⟨S1600000x1, .i32⟩) (.of main_call0_v13 : StableHlo.TRef sig ⟨S1600000x64, .f32⟩) (fun x i => Host.gather gather_S100000x64_S1600000x1_S1600000x64_1_0_n_n_0_1_164 x i),
    StableHlo.TRef.unary (.of main_call0_v12 : StableHlo.TRef sig ⟨S1600000, .i1⟩) (.of main_call0_v14 : StableHlo.TRef sig ⟨S1600000x64, .i1⟩) (broadcastInDim S1600000x64 ![0] bcast_S1600000_S1600000x64_0),
    StableHlo.TRef.nullary (.of main_call0_cst : StableHlo.TRef sig ⟨S_, .f32⟩) (constant (F := Ideal) S_ .f32 0x7FC00000#32),
    StableHlo.TRef.unary (.of main_call0_cst : StableHlo.TRef sig ⟨S_, .f32⟩) (.of main_call0_v15 : StableHlo.TRef sig ⟨S1600000x64, .f32⟩) (broadcastInDim S1600000x64 ![] bcast_S_S1600000x64) ]
/-- Operation 23: the gathered row where the mask holds, the fill value elsewhere. -/
def ta_opsD : List (HloOp τ sig (Elt Ideal)) :=
  [ StableHlo.TRef.ternary (.of main_call0_v14 : StableHlo.TRef sig ⟨S1600000x64, .i1⟩) (.of main_call0_v13 : StableHlo.TRef sig ⟨S1600000x64, .f32⟩) (.of main_call0_v15 : StableHlo.TRef sig ⟨S1600000x64, .f32⟩) (.of main_v16 : StableHlo.TRef sig ⟨S1600000x64, .f32⟩) select ]

/-- The stretch is the four runs in a row. -/
theorem ta_cut : hostOps1 (F := Ideal) = ta_opsA ++ (ta_opsB ++ (ta_opsC ++ ta_opsD)) := rfl

theorem ta_A_v5 : StableHlo.after ta_opsA W (Proc.devRef .tc main_call0_v5) =
    ((broadcastInDim S1600000x1 ![0] bcast_S1600000_S1600000x1_0 (select (cmpi .slt (W (Proc.devRef .tc main_v1)) (broadcastInDim S1600000 ![] bcast_S_S1600000 (constantI S_ 32 0#32))) (addi (W (Proc.devRef .tc main_v1)) (broadcastInDim S1600000 ![] bcast_S_S1600000 (constantI S_ 32 100000#32))) (W (Proc.devRef .tc main_v1)))) : (⟨S1600000x1, .i32⟩ : BufTy).Contents (Elt Ideal)) := by
  unfold ta_opsA
  after_results
  simp only [StableHlo.TRef.ofBuf, StableHlo.TRef.toBuf, cast_eq]
theorem ta_A_tab : StableHlo.after ta_opsA W (Proc.devRef .tc main_v15) = W (Proc.devRef .tc main_v15) := by
  unfold ta_opsA
  after_results
theorem ta_B_v12 : StableHlo.after ta_opsB W (Proc.devRef .tc main_call0_v12) =
    ((Host.reduce IntOp.andi (andi (cmpi .sge (W (Proc.devRef .tc main_call0_v5)) (broadcastInDim S1600000x1 ![] bcast_S_S1600000x1 (constantI S_ 32 0#32))) (cmpi .sle (W (Proc.devRef .tc main_call0_v5)) (broadcastInDim S1600000x1 ![0, 1] bcast_S1x1_S1600000x1_0_1 (broadcastInDim S1x1 ![1] bcast_S1_S1x1_1 (constantI S1 32 99999#32))))) (constantI S_ 1 1#1) reducesTo_S1600000x1_S1600000_d1 h_S_) : (⟨S1600000, .i1⟩ : BufTy).Contents (Elt Ideal)) := by
  unfold ta_opsB
  after_results
  simp only [StableHlo.TRef.ofBuf, StableHlo.TRef.toBuf, cast_eq]
theorem ta_B_v5 : StableHlo.after ta_opsB W (Proc.devRef .tc main_call0_v5) = W (Proc.devRef .tc main_call0_v5) := by
  unfold ta_opsB
  after_results
theorem ta_B_tab : StableHlo.after ta_opsB W (Proc.devRef .tc main_v15) = W (Proc.devRef .tc main_v15) := by
  unfold ta_opsB
  after_results
theorem ta_C_v13 : StableHlo.after ta_opsC W (Proc.devRef .tc main_call0_v13) =
    ((Host.gather gather_S100000x64_S1600000x1_S1600000x64_1_0_n_n_0_1_164 (W (Proc.devRef .tc main_v15)) (W (Proc.devRef .tc main_call0_v5))) : (⟨S1600000x64, .f32⟩ : BufTy).Contents (Elt Ideal)) := by
  unfold ta_opsC
  after_results
  simp only [StableHlo.TRef.ofBuf, StableHlo.TRef.toBuf, cast_eq]
theorem ta_C_v14 : StableHlo.after ta_opsC W (Proc.devRef .tc main_call0_v14) =
    ((broadcastInDim S1600000x64 ![0] bcast_S1600000_S1600000x64_0 (W (Proc.devRef .tc main_call0_v12))) : (⟨S1600000x64, .i1⟩ : BufTy).Contents (Elt Ideal)) := by
  unfold ta_opsC
  after_results
  simp only [StableHlo.TRef.ofBuf, StableHlo.TRef.toBuf, cast_eq]
theorem ta_C_v15 : StableHlo.after ta_opsC W (Proc.devRef .tc main_call0_v15) =
    ((broadcastInDim S1600000x64 ![] bcast_S_S1600000x64 (constant (F := Ideal) S_ .f32 0x7FC00000#32)) : (⟨S1600000x64, .f32⟩ : BufTy).Contents (Elt Ideal)) := by
  unfold ta_opsC
  after_results
  simp only [StableHlo.TRef.ofBuf, StableHlo.TRef.toBuf, cast_eq]
theorem ta_D_out : StableHlo.after ta_opsD W (Proc.devRef .tc main_v16) =
    (select (W (Proc.devRef .tc main_call0_v14)) (W (Proc.devRef .tc main_call0_v13)) (W (Proc.devRef .tc main_call0_v15)) : (⟨S1600000x64, .f32⟩ : BufTy).Contents (Elt Ideal)) := by
  unfold ta_opsD
  after_results
  simp only [StableHlo.TRef.ofBuf, StableHlo.TRef.toBuf, cast_eq]

/-- What the stretch leaves in its result, from any starting contents. -/
theorem ta_take_first (U : Valuation τ sig (Elt Ideal)) :
    StableHlo.after (hostOps1 (F := Ideal)) U (Proc.devRef .tc main_v16) =
    ta_term (U (Proc.devRef .tc main_v15)) (U (Proc.devRef .tc main_v1)) := by
  unfold ta_term
  rw [ta_cut, StableHlo.after_append, StableHlo.after_append, StableHlo.after_append]
  rw [ta_D_out, ta_C_v14, ta_C_v13, ta_C_v15, ta_B_v12, ta_B_v5, ta_B_tab, ta_A_v5, ta_A_tab]

/-- The stretch that follows does not write the result. -/
theorem ta_out_kept (V : Valuation τ sig (Elt Ideal)) :
    StableHlo.after (hostOps1_1 (F := Ideal)) V (Proc.devRef .tc main_v16) = V (Proc.devRef .tc main_v16) := by
  after_results

/-- The two stretches in a row, read at the result. -/
theorem ta_take_lhs (U : Valuation τ sig (Elt Ideal)) :
    StableHlo.after (hostOps1_1 (F := Ideal)) (StableHlo.after (hostOps1 (F := Ideal)) U) (Proc.devRef .tc main_v16) =
    ta_term (U (Proc.devRef .tc main_v15)) (U (Proc.devRef .tc main_v1)) := by
  rw [ta_out_kept, ta_take_first]

/-- The two stretches in a row, read at the result, with the term written out. -/
theorem ta_take_lhs_explicit (U : Valuation τ sig (Elt Ideal)) :
    StableHlo.after (hostOps1_1 (F := Ideal)) (StableHlo.after (hostOps1 (F := Ideal)) U) (Proc.devRef .tc main_v16) =
    (select (broadcastInDim S1600000x64 ![0] bcast_S1600000_S1600000x64_0 (Host.reduce IntOp.andi (andi (cmpi .sge (broadcastInDim S1600000x1 ![0] bcast_S1600000_S1600000x1_0 (select (cmpi .slt (U (Proc.devRef .tc main_v1)) (broadcastInDim S1600000 ![] bcast_S_S1600000 (constantI S_ 32 0#32))) (addi (U (Proc.devRef .tc main_v1)) (broadcastInDim S1600000 ![] bcast_S_S1600000 (constantI S_ 32 100000#32))) (U (Proc.devRef .tc main_v1)))) (broadcastInDim S1600000x1 ![] bcast_S_S1600000x1 (constantI S_ 32 0#32))) (cmpi .sle (broadcastInDim S1600000x1 ![0] bcast_S1600000_S1600000x1_0 (select (cmpi .slt (U (Proc.devRef .tc main_v1)) (broadcastInDim S1600000 ![] bcast_S_S1600000 (constantI S_ 32 0#32))) (addi (U (Proc.devRef .tc main_v1)) (broadcastInDim S1600000 ![] bcast_S_S1600000 (constantI S_ 32 100000#32))) (U (Proc.devRef .tc main_v1)))) (broadcastInDim S1600000x1 ![0, 1] bcast_S1x1_S1600000x1_0_1 (broadcastInDim S1x1 ![1] bcast_S1_S1x1_1 (constantI S1 32 99999#32))))) (constantI S_ 1 1#1) reducesTo_S1600000x1_S1600000_d1 h_S_))
      (Host.gather gather_S100000x64_S1600000x1_S1600000x64_1_0_n_n_0_1_164 (U (Proc.devRef .tc main_v15)) (broadcastInDim S1600000x1 ![0] bcast_S1600000_S1600000x1_0 (select (cmpi .slt (U (Proc.devRef .tc main_v1)) (broadcastInDim S1600000 ![] bcast_S_S1600000 (constantI S_ 32 0#32))) (addi (U (Proc.devRef .tc main_v1)) (broadcastInDim S1600000 ![] bcast_S_S1600000 (constantI S_ 32 100000#32))) (U (Proc.devRef .tc main_v1)))))
      (broadcastInDim S1600000x64 ![] bcast_S_S1600000x64 (constant (F := Ideal) S_ .f32 0x7FC00000#32)) : (⟨S1600000x64, .f32⟩ : BufTy).Contents (Elt Ideal)) :=
  ta_take_lhs U

/-! ## hostOps4: the four runs -/

/-- Operations 1 to 8: the source id, with 100000 added where it is negative, as a column. -/
def ta_L2_opsA : List (HloOp τ sig (Elt Ideal)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S1600000, .i32⟩) (broadcastInDim S1600000 ![] bcast_S_S1600000),
    StableHlo.TRef.binary (.of main_v1 : StableHlo.TRef sig ⟨S1600000, .i32⟩) (.of main_call1_v0 : StableHlo.TRef sig ⟨S1600000, .i32⟩) (.of main_call1_v1 : StableHlo.TRef sig ⟨S1600000, .i1⟩) (cmpi .slt),
    StableHlo.TRef.nullary (.of main_call1_c_0 : StableHlo.TRef sig ⟨S_, .i32⟩) (constantI S_ 32 100000#32),
    StableHlo.TRef.unary (.of main_call1_c_0 : StableHlo.TRef sig ⟨S_, .i32⟩) (.of main_call1_v2 : StableHlo.TRef sig ⟨S1600000, .i32⟩) (broadcastInDim S1600000 ![] bcast_S_S1600000),
    StableHlo.TRef.binary (.of main_v1 : StableHlo.TRef sig ⟨S1600000, .i32⟩) (.of main_call1_v2 : StableHlo.TRef sig ⟨S1600000, .i32⟩) (.of main_call1_v3 : StableHlo.TRef sig ⟨S1600000, .i32⟩) addi,
    StableHlo.TRef.ternary (.of main_call1_v1 : StableHlo.TRef sig ⟨S1600000, .i1⟩) (.of main_call1_v3 : StableHlo.TRef sig ⟨S1600000, .i32⟩) (.of main_v1 : StableHlo.TRef sig ⟨S1600000, .i32⟩) (.of main_call1_v4 : StableHlo.TRef sig ⟨S1600000, .i32⟩) select,
    StableHlo.TRef.unary main_call1_call0.v0 (.of main_call1_v5 : StableHlo.TRef sig ⟨S1600000x1, .i32⟩) (broadcastInDim S1600000x1 ![0] bcast_S1600000_S1600000x1_0) ]
/-- Operations 9 to 18: whether the wrapped id lies in [0, 99999], per edge. -/
def ta_L2_opsB : List (HloOp τ sig (Elt Ideal)) :=
  [ StableHlo.TRef.nullary (.of main_call1_c_1 : StableHlo.TRef sig ⟨S1, .i32⟩) (constantI S1 32 99999#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S1600000x1, .i32⟩) (broadcastInDim S1600000x1 ![] bcast_S_S1600000x1),
    StableHlo.TRef.binary (.of main_call1_v5 : StableHlo.TRef sig ⟨S1600000x1, .i32⟩) (.of main_call1_v6 : StableHlo.TRef sig ⟨S1600000x1, .i32⟩) (.of main_call1_v7 : StableHlo.TRef sig ⟨S1600000x1, .i1⟩) (cmpi .sge),
    StableHlo.TRef.unary (.of main_call1_c_1 : StableHlo.TRef sig ⟨S1, .i32⟩) (.of main_call1_v8 : StableHlo.TRef sig ⟨S1x1, .i32⟩) (broadcastInDim S1x1 ![1] bcast_S1_S1x1_1),
    StableHlo.TRef.unary (.of main_call1_v8 : StableHlo.TRef sig ⟨S1x1, .i32⟩) (.of main_call1_v9 : StableHlo.TRef sig ⟨S1600000x1, .i32⟩) (broadcastInDim S1600000x1 ![0, 1] bcast_S1x1_S1600000x1_0_1),
    StableHlo.TRef.binary (.of main_call1_v5 : StableHlo.TRef sig ⟨S1600000x1, .i32⟩) (.of main_call1_v9 : StableHlo.TRef sig ⟨S1600000x1, .i32⟩) (.of main_call1_v10 : StableHlo.TRef sig ⟨S1600000x1, .i1⟩) (cmpi .sle),
    StableHlo.TRef.binary (.of main_call1_v7 : StableHlo.TRef sig ⟨S1600000x1, .i1⟩) (.of main_call1_v10 : StableHlo.TRef sig ⟨S1600000x1, .i1⟩) (.of main_call1_v11 : StableHlo.TRef sig ⟨S1600000x1, .i1⟩) andi,
    StableHlo.TRef.nullary (.of main_call1_c_3 : StableHlo.TRef sig ⟨S_, .i1⟩) (constantI S_ 1 1#1),
    StableHlo.TRef.binary (.of main_call1_v11 : StableHlo.TRef sig ⟨S1600000x1, .i1⟩) (.of main_call1_c_3 : StableHlo.TRef sig ⟨S_, .i1⟩) (.of main_call1_v12 : StableHlo.TRef sig ⟨S1600000, .i1⟩) (fun x v => Host.reduce IntOp.andi x v reducesTo_S1600000x1_S1600000_d1 h_S_) ]
/-- Operations 19 to 22: the gathered rows, the mask over a row's entries, the fill value. -/
def ta_L2_opsC : List (HloOp τ sig (Elt Ideal)) :=
  [ StableHlo.TRef.binary (.of main_v41 : StableHlo.TRef sig ⟨S100000x64, .f32⟩) (.of main_call1_v5 : StableHlo.TRef sig ⟨S1600000x1, .i32⟩) (.of main_call1_v13 : StableHlo.TRef sig ⟨S1600000x64, .f32⟩) (fun x i => Host.gather gather_S100000x64_S1600000x1_S1600000x64_1_0_n_n_0_1_164 x i),
    StableHlo.TRef.unary (.of main_call1_v12 : StableHlo.TRef sig ⟨S1600000, .i1⟩) (.of main_call1_v14 : StableHlo.TRef sig ⟨S1600000x64, .i1⟩) (broadcastInDim S1600000x64 ![0] bcast_S1600000_S1600000x64_0),
    StableHlo.TRef.nullary (.of main_call1_cst : StableHlo.TRef sig ⟨S_, .f32⟩) (constant (F := Ideal) S_ .f32 0x7FC00000#32),
    StableHlo.TRef.unary (.of main_call1_cst : StableHlo.TRef sig ⟨S_, .f32⟩) (.of main_call1_v15 : StableHlo.TRef sig ⟨S1600000x64, .f32⟩) (broadcastInDim S1600000x64 ![] bcast_S_S1600000x64) ]
/-- Operation 23: the gathered row where the mask holds, the fill value elsewhere. -/
def ta_L2_opsD : List (HloOp τ sig (Elt Ideal)) :=
  [ StableHlo.TRef.ternary (.of main_call1_v14 : StableHlo.TRef sig ⟨S1600000x64, .i1⟩) (.of main_call1_v13 : StableHlo.TRef sig ⟨S1600000x64, .f32⟩) (.of main_call1_v15 : StableHlo.TRef sig ⟨S1600000x64, .f32⟩) (.of main_v42 : StableHlo.TRef sig ⟨S1600000x64, .f32⟩) select ]

/-- The stretch is the four runs in a row. -/
theorem ta_L2_cut : hostOps4 (F := Ideal) = ta_L2_opsA ++ (ta_L2_opsB ++ (ta_L2_opsC ++ ta_L2_opsD)) := rfl

theorem ta_L2_A_v5 : StableHlo.after ta_L2_opsA W (Proc.devRef .tc main_call1_v5) =
    ((broadcastInDim S1600000x1 ![0] bcast_S1600000_S1600000x1_0 (select (cmpi .slt (W (Proc.devRef .tc main_v1)) (broadcastInDim S1600000 ![] bcast_S_S1600000 (constantI S_ 32 0#32))) (addi (W (Proc.devRef .tc main_v1)) (broadcastInDim S1600000 ![] bcast_S_S1600000 (constantI S_ 32 100000#32))) (W (Proc.devRef .tc main_v1)))) : (⟨S1600000x1, .i32⟩ : BufTy).Contents (Elt Ideal)) := by
  unfold ta_L2_opsA
  after_results
  simp only [StableHlo.TRef.ofBuf, StableHlo.TRef.toBuf, cast_eq]
theorem ta_L2_A_tab : StableHlo.after ta_L2_opsA W (Proc.devRef .tc main_v41) = W (Proc.devRef .tc main_v41) := by
  unfold ta_L2_opsA
  after_results
theorem ta_L2_B_v12 : StableHlo.after ta_L2_opsB W (Proc.devRef .tc main_call1_v12) =
    ((Host.reduce IntOp.andi (andi (cmpi .sge (W (Proc.devRef .tc main_call1_v5)) (broadcastInDim S1600000x1 ![] bcast_S_S1600000x1 (constantI S_ 32 0#32))) (cmpi .sle (W (Proc.devRef .tc main_call1_v5)) (broadcastInDim S1600000x1 ![0, 1] bcast_S1x1_S1600000x1_0_1 (broadcastInDim S1x1 ![1] bcast_S1_S1x1_1 (constantI S1 32 99999#32))))) (constantI S_ 1 1#1) reducesTo_S1600000x1_S1600000_d1 h_S_) : (⟨S1600000, .i1⟩ : BufTy).Contents (Elt Ideal)) := by
  unfold ta_L2_opsB
  after_results
  simp only [StableHlo.TRef.ofBuf, StableHlo.TRef.toBuf, cast_eq]
theorem ta_L2_B_v5 : StableHlo.after ta_L2_opsB W (Proc.devRef .tc main_call1_v5) = W (Proc.devRef .tc main_call1_v5) := by
  unfold ta_L2_opsB
  after_results
theorem ta_L2_B_tab : StableHlo.after ta_L2_opsB W (Proc.devRef .tc main_v41) = W (Proc.devRef .tc main_v41) := by
  unfold ta_L2_opsB
  after_results
theorem ta_L2_C_v13 : StableHlo.after ta_L2_opsC W (Proc.devRef .tc main_call1_v13) =
    ((Host.gather gather_S100000x64_S1600000x1_S1600000x64_1_0_n_n_0_1_164 (W (Proc.devRef .tc main_v41)) (W (Proc.devRef .tc main_call1_v5))) : (⟨S1600000x64, .f32⟩ : BufTy).Contents (Elt Ideal)) := by
  unfold ta_L2_opsC
  after_results
  simp only [StableHlo.TRef.ofBuf, StableHlo.TRef.toBuf, cast_eq]
theorem ta_L2_C_v14 : StableHlo.after ta_L2_opsC W (Proc.devRef .tc main_call1_v14) =
    ((broadcastInDim S1600000x64 ![0] bcast_S1600000_S1600000x64_0 (W (Proc.devRef .tc main_call1_v12))) : (⟨S1600000x64, .i1⟩ : BufTy).Contents (Elt Ideal)) := by
  unfold ta_L2_opsC
  after_results
  simp only [StableHlo.TRef.ofBuf, StableHlo.TRef.toBuf, cast_eq]
theorem ta_L2_C_v15 : StableHlo.after ta_L2_opsC W (Proc.devRef .tc main_call1_v15) =
    ((broadcastInDim S1600000x64 ![] bcast_S_S1600000x64 (constant (F := Ideal) S_ .f32 0x7FC00000#32)) : (⟨S1600000x64, .f32⟩ : BufTy).Contents (Elt Ideal)) := by
  unfold ta_L2_opsC
  after_results
  simp only [StableHlo.TRef.ofBuf, StableHlo.TRef.toBuf, cast_eq]
theorem ta_L2_D_out : StableHlo.after ta_L2_opsD W (Proc.devRef .tc main_v42) =
    (select (W (Proc.devRef .tc main_call1_v14)) (W (Proc.devRef .tc main_call1_v13)) (W (Proc.devRef .tc main_call1_v15)) : (⟨S1600000x64, .f32⟩ : BufTy).Contents (Elt Ideal)) := by
  unfold ta_L2_opsD
  after_results
  simp only [StableHlo.TRef.ofBuf, StableHlo.TRef.toBuf, cast_eq]

/-- What the stretch leaves in its result, from any starting contents. -/
theorem ta_L2_take_first (U : Valuation τ sig (Elt Ideal)) :
    StableHlo.after (hostOps4 (F := Ideal)) U (Proc.devRef .tc main_v42) =
    ta_term (U (Proc.devRef .tc main_v41)) (U (Proc.devRef .tc main_v1)) := by
  unfold ta_term
  rw [ta_L2_cut, StableHlo.after_append, StableHlo.after_append, StableHlo.after_append]
  rw [ta_L2_D_out, ta_L2_C_v14, ta_L2_C_v13, ta_L2_C_v15, ta_L2_B_v12, ta_L2_B_v5, ta_L2_B_tab, ta_L2_A_v5, ta_L2_A_tab]

/-- The stretch that follows does not write the result. -/
theorem ta_L2_out_kept (V : Valuation τ sig (Elt Ideal)) :
    StableHlo.after (hostOps4_1 (F := Ideal)) V (Proc.devRef .tc main_v42) = V (Proc.devRef .tc main_v42) := by
  after_results

/-- The two stretches in a row, read at the result. -/
theorem ta_L2_take_lhs (U : Valuation τ sig (Elt Ideal)) :
    StableHlo.after (hostOps4_1 (F := Ideal)) (StableHlo.after (hostOps4 (F := Ideal)) U) (Proc.devRef .tc main_v42) =
    ta_term (U (Proc.devRef .tc main_v41)) (U (Proc.devRef .tc main_v1)) := by
  rw [ta_L2_out_kept, ta_L2_take_first]

/-- The two stretches in a row, read at the result, with the term written out. -/
theorem ta_L2_take_lhs_explicit (U : Valuation τ sig (Elt Ideal)) :
    StableHlo.after (hostOps4_1 (F := Ideal)) (StableHlo.after (hostOps4 (F := Ideal)) U) (Proc.devRef .tc main_v42) =
    (select (broadcastInDim S1600000x64 ![0] bcast_S1600000_S1600000x64_0 (Host.reduce IntOp.andi (andi (cmpi .sge (broadcastInDim S1600000x1 ![0] bcast_S1600000_S1600000x1_0 (select (cmpi .slt (U (Proc.devRef .tc main_v1)) (broadcastInDim S1600000 ![] bcast_S_S1600000 (constantI S_ 32 0#32))) (addi (U (Proc.devRef .tc main_v1)) (broadcastInDim S1600000 ![] bcast_S_S1600000 (constantI S_ 32 100000#32))) (U (Proc.devRef .tc main_v1)))) (broadcastInDim S1600000x1 ![] bcast_S_S1600000x1 (constantI S_ 32 0#32))) (cmpi .sle (broadcastInDim S1600000x1 ![0] bcast_S1600000_S1600000x1_0 (select (cmpi .slt (U (Proc.devRef .tc main_v1)) (broadcastInDim S1600000 ![] bcast_S_S1600000 (constantI S_ 32 0#32))) (addi (U (Proc.devRef .tc main_v1)) (broadcastInDim S1600000 ![] bcast_S_S1600000 (constantI S_ 32 100000#32))) (U (Proc.devRef .tc main_v1)))) (broadcastInDim S1600000x1 ![0, 1] bcast_S1x1_S1600000x1_0_1 (broadcastInDim S1x1 ![1] bcast_S1_S1x1_1 (constantI S1 32 99999#32))))) (constantI S_ 1 1#1) reducesTo_S1600000x1_S1600000_d1 h_S_))
      (Host.gather gather_S100000x64_S1600000x1_S1600000x64_1_0_n_n_0_1_164 (U (Proc.devRef .tc main_v41)) (broadcastInDim S1600000x1 ![0] bcast_S1600000_S1600000x1_0 (select (cmpi .slt (U (Proc.devRef .tc main_v1)) (broadcastInDim S1600000 ![] bcast_S_S1600000 (constantI S_ 32 0#32))) (addi (U (Proc.devRef .tc main_v1)) (broadcastInDim S1600000 ![] bcast_S_S1600000 (constantI S_ 32 100000#32))) (U (Proc.devRef .tc main_v1)))))
      (broadcastInDim S1600000x64 ![] bcast_S_S1600000x64 (constant (F := Ideal) S_ .f32 0x7FC00000#32)) : (⟨S1600000x64, .f32⟩ : BufTy).Contents (Elt Ideal)) :=
  ta_L2_take_lhs U

end Cert.KernelIdeal.Host

end
-- ==== Proof.KHostB.lean ====
/-
  The kernel program's two gather stretches, each from an arbitrary starting contents U. The row gather of h by source id fills a row with a not-a-number word where the wrapped id falls outside [0, 99999]; on the domain (every source id a node) no row is filled, and the gathered rows are the reference's. The per-edge coefficient, the product of the normalisation gathered at source and at destination, is laid out as a column.
-/
import proofs.«414105_j83975200571652_2_alg».proof.Proof.Gen.KernelIdeal.Launch
import proofs.«414105_j83975200571652_2_alg».proof.Proof.Gen.ReferenceIdeal.Read
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.ValueLayout
import proofs.«414105_j83975200571652_2_alg».proof.Proof.Range
import proofs.«414105_j83975200571652_2_alg».proof.Proof.KTakeCut
set_option maxRecDepth 16384

noncomputable section

namespace Cert.KernelIdeal.Host

open Cert.KernelIdeal Cert.KernelIdeal.Gen Idealize.ShloMosaic Idealize.ShloMosaic.TcCoe Idealize.ShloMosaic.StableHlo
open Idealize.ShloMosaic.ValueIdx

/- The buffer contents a host stretch starts from: a parameter. -/
variable (U : Valuation τ sig (Elt Ideal))
variable (x : (⟨Cert.ReferenceIdeal.S100000x128, .f32⟩ : BufTy).Contents (Elt Ideal)) (ei : (⟨Cert.ReferenceIdeal.S2x1600000, .i32⟩ : BufTy).Contents (Elt Ideal))
  (w1 : (⟨Cert.ReferenceIdeal.S128x64, .f32⟩ : BufTy).Contents (Elt Ideal)) (b1 : (⟨Cert.ReferenceIdeal.S64, .f32⟩ : BufTy).Contents (Elt Ideal))
  (w2 : (⟨Cert.ReferenceIdeal.S64x64, .f32⟩ : BufTy).Contents (Elt Ideal)) (b2 : (⟨Cert.ReferenceIdeal.S64, .f32⟩ : BufTy).Contents (Elt Ideal))
  (wfc : (⟨Cert.ReferenceIdeal.S64x40, .f32⟩ : BufTy).Contents (Elt Ideal)) (bfc : (⟨Cert.ReferenceIdeal.S40, .f32⟩ : BufTy).Contents (Elt Ideal))

/-- A left fold by `and` over one-bit words that starts at 1 and meets only 1s ends at 1. -/
theorem hb_foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self]
    exact hb_foldl_andi_one f l (fun n hn => h n (List.mem_cons_of_mem _ hn))

/-- A reduction by `and` from the initial value 1 of an array whose every bit is 1 is 1 at every result index. -/
theorem hb_reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact hb_foldl_andi_one x _ (fun n _ => hx n)

/-- One source id s with 0 ≤ s < 100000 (signed): it is not negative, so wrapping leaves it alone, and it lies in [0, 99999]:
    the in-range bit of the wrapped id is 1. -/
theorem hb_mask_bit (s : BitVec 32) (h0 : IntOp.cmpi .sge s 0#32 = 1#1) (h1 : IntOp.cmpi .slt s 100000#32 = 1#1) :
    IntOp.andi (IntOp.cmpi .sge (Scalar.select (IntOp.cmpi .slt s 0#32) (IntOp.addi s 100000#32) s) 0#32)
      (IntOp.cmpi .sle (Scalar.select (IntOp.cmpi .slt s 0#32) (IntOp.addi s 100000#32) s) 99999#32) = 1#1 := by
  have e0 : (0#32 : BitVec 32).toInt = 0 := by decide
  have e1 : (100000#32 : BitVec 32).toInt = 100000 := by decide
  have e9 : (99999#32 : BitVec 32).toInt = 99999 := by decide
  have a0 := IntOp.cmpi_sge.1 h0
  have a1 := IntOp.cmpi_slt.1 h1
  have hneg : IntOp.cmpi .slt s 0#32 = 0#1 :=
    eq_zero_of_ne_one (fun hc => by have := IntOp.cmpi_slt.1 hc; omega)
  rw [hneg, select_zero]
  exact IntOp.andi_eq_one.2 ⟨h0, IntOp.cmpi_sle.2 (by omega)⟩

/-- A select on a bit that is 1 is its first operand. -/
theorem hb_select_of_one {α : Type} (c : BitVec 1) (a b : α) (h : c = 1#1) : Scalar.select c a b = a := by
  rw [h]; exact select_one a b

/-- On the domain the row gather's fill is never chosen: every wrapped source id lies in [0, 99999], so the in-range mask is all ones
    and the select returns the gathered rows. -/
theorem hb_take_val (h : (⟨S100000x64, .f32⟩ : BufTy).Contents (Elt Ideal)) (src : (⟨S1600000, .i32⟩ : BufTy).Contents (Elt Ideal))
    (hr : ∀ e : S1600000.Idx, IntOp.cmpi .sge (src e) 0#32 = 1#1 ∧ IntOp.cmpi .slt (src e) 100000#32 = 1#1) :
    (select (broadcastInDim S1600000x64 ![0] bcast_S1600000_S1600000x64_0 (Host.reduce IntOp.andi (andi (cmpi .sge (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)) (broadcastInDim S1600000x1 ![] bcast_S_S1600000x1 (constantI S_ 32 0#32))) (cmpi .sle (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)) (broadcastInDim S1600000x1 ![0, 1] bcast_S1x1_S1600000x1_0_1 (broadcastInDim S1x1 ![1] bcast_S1_S1x1_1 (constantI S1 32 99999#32))))) (constantI S_ 1 1#1) reducesTo_S1600000x1_S1600000_d1 h_S_))
      (Host.gather gather_S100000x64_S1600000x1_S1600000x64_1_0_n_n_0_1_164 h (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))
      (broadcastInDim S1600000x64 ![] bcast_S_S1600000x64 (constant (F := Ideal) S_ .f32 0x7FC00000#32)) : (⟨S1600000x64, .f32⟩ : BufTy).Contents (Elt Ideal))
      = (Host.gather gather_S100000x64_S1600000x1_S1600000x64_1_0_n_n_0_1_164 h (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src))) := by
  funext i
  refine hb_select_of_one _ _ _ ?_
  -- the mask at entry i of row e is the conjunction, over the one-element axis, of the in-range bit of edge e
  show Host.reduce IntOp.andi _ _ _ _ _ = 1#1
  refine hb_reduce_andi_one _ _ _ _ _ rfl (fun j => ?_)
  exact hb_mask_bit _ (hr _).1 (hr _).2

/-! ## Stretches 1 and 1_1 (layer 1) -/
theorem take1 (hh : U (Proc.devRef .tc main_v15) = (Cert.ReferenceIdeal.Read.val_main_v4 (F := Ideal) x w1)) (hsrc : U (Proc.devRef .tc main_v1) = (Cert.ReferenceIdeal.Read.val_main_v1 (F := Ideal) ei))
    (hr : Cert.Range.InRange ei) :
    StableHlo.after (hostOps1_1 (F := Ideal)) (StableHlo.after (hostOps1 (F := Ideal)) U) (Proc.devRef .tc main_v16) = (Cert.ReferenceIdeal.Read.val_main_v33 (F := Ideal) x ei w1) := by
  rw [ta_take_lhs_explicit, hh, hsrc]
  -- on the domain the fill is never chosen; what is left is the reference's gather of the same rows by the same wrapped ids
  refine (hb_take_val _ _ hr).trans ?_
  unfold Cert.ReferenceIdeal.Read.val_main_v33 Cert.ReferenceIdeal.Read.val_main_v32 Cert.ReferenceIdeal.Read.val_main_v31 Cert.ReferenceIdeal.Read.val_main_v30 Cert.ReferenceIdeal.Read.val_main_v29 Cert.ReferenceIdeal.Read.val_main_v28 Cert.ReferenceIdeal.Read.val_main_v27 Cert.ReferenceIdeal.Read.val_main_c_5 Cert.ReferenceIdeal.Read.val_main_c_6
  rfl
/- The coefficient needs no domain fact: both sides wrap the ids, gather the normalisation and multiply in the same way; the kernel then
   reshapes the vector to a column where the reference broadcasts it to one, and the two agree entry by entry. -/
set_option maxHeartbeats 1000000 in
theorem coef1 (hsrc : U (Proc.devRef .tc main_v1) = (Cert.ReferenceIdeal.Read.val_main_v1 (F := Ideal) ei)) (hdst : U (Proc.devRef .tc main_v3) = (Cert.ReferenceIdeal.Read.val_main_v3 (F := Ideal) ei))
    (hdis : U (Proc.devRef .tc main_v10) = (Cert.ReferenceIdeal.Read.val_main_v11 (F := Ideal) ei)) :
    StableHlo.after (hostOps1_1 (F := Ideal)) (StableHlo.after (hostOps1 (F := Ideal)) U) (Proc.devRef .tc main_v32) = (Cert.ReferenceIdeal.Read.val_main_v34 (F := Ideal) ei) := by
  have e1 : StableHlo.after (hostOps1 (F := Ideal)) U (Proc.devRef .tc main_v1) = U (Proc.devRef .tc main_v1) :=
    (StableHlo.after_of_forall_not_mem (b := Proc.devRef .tc main_v1) _ _ (List.forall_iff_forall_mem.mp (by
          simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide))))
  have e3 : StableHlo.after (hostOps1 (F := Ideal)) U (Proc.devRef .tc main_v3) = U (Proc.devRef .tc main_v3) :=
    (StableHlo.after_of_forall_not_mem (b := Proc.devRef .tc main_v3) _ _ (List.forall_iff_forall_mem.mp (by
          simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide))))
  have e10 : StableHlo.after (hostOps1 (F := Ideal)) U (Proc.devRef .tc main_v10) = U (Proc.devRef .tc main_v10) :=
    (StableHlo.after_of_forall_not_mem (b := Proc.devRef .tc main_v10) _ _ (List.forall_iff_forall_mem.mp (by
          simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide))))
  rw [hsrc] at e1
  rw [hdst] at e3
  rw [hdis] at e10
  generalize StableHlo.after (hostOps1 (F := Ideal)) U = V at e1 e3 e10 ⊢
  after_results_simp
  rw [e1, e3, e10]
  -- entry (p, 0) of the reshaped product is entry p of the product, as is entry (p, 0) of its broadcast to a column
  funext i
  rw [Cert.ReferenceIdeal.Read.val_main_v34_apply]
  refine (shapeCast_apply _ shapeCasts_S1600000_S1600000x1 i (Cert.ReferenceIdeal.Read.idx_main_v34 i) (by
    rewrite [Shape.rowMajor_val_two, Shape.rowMajor_val_one]
    have h1 : (i 1).val < 1 := (i 1).isLt
    show (i 0).val = (i 0).val * 1 + (i 1).val
    omega)).trans ?_
  -- the product itself: the same wrap, gather and multiply on both sides
  unfold Cert.ReferenceIdeal.Read.val_main_v26 Cert.ReferenceIdeal.Read.val_main_v25 Cert.ReferenceIdeal.Read.val_main_v24 Cert.ReferenceIdeal.Read.val_main_v23 Cert.ReferenceIdeal.Read.val_main_v22 Cert.ReferenceIdeal.Read.val_main_v21 Cert.ReferenceIdeal.Read.val_main_v20 Cert.ReferenceIdeal.Read.val_main_v19 Cert.ReferenceIdeal.Read.val_main_v18 Cert.ReferenceIdeal.Read.val_main_v17 Cert.ReferenceIdeal.Read.val_main_v16 Cert.ReferenceIdeal.Read.val_main_v15 Cert.ReferenceIdeal.Read.val_main_v14 Cert.ReferenceIdeal.Read.val_main_v13 Cert.ReferenceIdeal.Read.val_main_v12 Cert.ReferenceIdeal.Read.val_main_c Cert.ReferenceIdeal.Read.val_main_c_2 Cert.ReferenceIdeal.Read.val_main_c_3 Cert.ReferenceIdeal.Read.val_main_c_4
  rfl

/-! ## Stretches 4 and 4_1 (layer 2) -/
theorem take2 (hh : U (Proc.devRef .tc main_v41) = (Cert.ReferenceIdeal.Read.val_main_v49 (F := Ideal) x ei w1 b1 w2)) (hsrc : U (Proc.devRef .tc main_v1) = (Cert.ReferenceIdeal.Read.val_main_v1 (F := Ideal) ei))
    (hr : Cert.Range.InRange ei) :
    StableHlo.after (hostOps4_1 (F := Ideal)) (StableHlo.after (hostOps4 (F := Ideal)) U) (Proc.devRef .tc main_v42) = (Cert.ReferenceIdeal.Read.val_main_v78 (F := Ideal) x ei w1 b1 w2) := by
  rw [ta_L2_take_lhs_explicit, hh, hsrc]
  -- as in layer 1: the mask is all ones on the domain, and the gather is the reference's
  refine (hb_take_val _ _ hr).trans ?_
  unfold Cert.ReferenceIdeal.Read.val_main_v78 Cert.ReferenceIdeal.Read.val_main_v77 Cert.ReferenceIdeal.Read.val_main_v76 Cert.ReferenceIdeal.Read.val_main_v75 Cert.ReferenceIdeal.Read.val_main_v74 Cert.ReferenceIdeal.Read.val_main_v73 Cert.ReferenceIdeal.Read.val_main_v72 Cert.ReferenceIdeal.Read.val_main_c_15 Cert.ReferenceIdeal.Read.val_main_c_16
  rfl
set_option maxHeartbeats 1000000 in
theorem coef2 (hsrc : U (Proc.devRef .tc main_v1) = (Cert.ReferenceIdeal.Read.val_main_v1 (F := Ideal) ei)) (hdst : U (Proc.devRef .tc main_v3) = (Cert.ReferenceIdeal.Read.val_main_v3 (F := Ideal) ei))
    (hdis : U (Proc.devRef .tc main_v10) = (Cert.ReferenceIdeal.Read.val_main_v11 (F := Ideal) ei)) :
    StableHlo.after (hostOps4_1 (F := Ideal)) (StableHlo.after (hostOps4 (F := Ideal)) U) (Proc.devRef .tc main_v58) = (Cert.ReferenceIdeal.Read.val_main_v34 (F := Ideal) ei) := by
  have e1 : StableHlo.after (hostOps4 (F := Ideal)) U (Proc.devRef .tc main_v1) = U (Proc.devRef .tc main_v1) :=
    (StableHlo.after_of_forall_not_mem (b := Proc.devRef .tc main_v1) _ _ (List.forall_iff_forall_mem.mp (by
          simp only [hostOps4, List.Forall, StableHlo.nullary_writes, StableHlo.unary_writes, StableHlo.binary_writes, StableHlo.ternary_writes, StableHlo.reshape_writes, Finset.mem_singleton]
          repeat' apply And.intro
          all_goals exact StableHlo.devRef_ne_of_ne (by decide))))
  have e3 : StableHlo.after (hostOps4 (F := Ideal)) U (Proc.devRef .tc main_v3) = U (Proc.devRef .tc main_v3) :=
    (StableHlo.after_of_forall_not_mem (b := Proc.devRef .tc main_v3) _ _ (List.forall_iff_forall_mem.mp (by
          simp only [hostOps4, List.Forall, StableHlo.nullary_writes, StableHlo.unary_writes, StableHlo.binary_writes, StableHlo.ternary_writes, StableHlo.reshape_writes, Finset.mem_singleton]
          repeat' apply And.intro
          all_goals exact StableHlo.devRef_ne_of_ne (by decide))))
  have e10 : StableHlo.after (hostOps4 (F := Ideal)) U (Proc.devRef .tc main_v10) = U (Proc.devRef .tc main_v10) :=
    (StableHlo.after_of_forall_not_mem (b := Proc.devRef .tc main_v10) _ _ (List.forall_iff_forall_mem.mp (by
          simp only [hostOps4, List.Forall, StableHlo.nullary_writes, StableHlo.unary_writes, StableHlo.binary_writes, StableHlo.ternary_writes, StableHlo.reshape_writes, Finset.mem_singleton]
          repeat' apply And.intro
          all_goals exact StableHlo.devRef_ne_of_ne (by decide))))
  rw [hsrc] at e1
  rw [hdst] at e3
  rw [hdis] at e10
  generalize StableHlo.after (hostOps4 (F := Ideal)) U = V at e1 e3 e10 ⊢
  after_results_simp
  rw [e1, e3, e10]
  -- entry (p, 0) of the reshaped product is entry p of the product, as is entry (p, 0) of its broadcast to a column
  funext i
  rw [Cert.ReferenceIdeal.Read.val_main_v34_apply]
  refine (shapeCast_apply _ shapeCasts_S1600000_S1600000x1 i (Cert.ReferenceIdeal.Read.idx_main_v34 i) (by
    rewrite [Shape.rowMajor_val_two, Shape.rowMajor_val_one]
    have h1 : (i 1).val < 1 := (i 1).isLt
    show (i 0).val = (i 0).val * 1 + (i 1).val
    omega)).trans ?_
  -- the product itself: the same wrap, gather and multiply on both sides
  unfold Cert.ReferenceIdeal.Read.val_main_v26 Cert.ReferenceIdeal.Read.val_main_v25 Cert.ReferenceIdeal.Read.val_main_v24 Cert.ReferenceIdeal.Read.val_main_v23 Cert.ReferenceIdeal.Read.val_main_v22 Cert.ReferenceIdeal.Read.val_main_v21 Cert.ReferenceIdeal.Read.val_main_v20 Cert.ReferenceIdeal.Read.val_main_v19 Cert.ReferenceIdeal.Read.val_main_v18 Cert.ReferenceIdeal.Read.val_main_v17 Cert.ReferenceIdeal.Read.val_main_v16 Cert.ReferenceIdeal.Read.val_main_v15 Cert.ReferenceIdeal.Read.val_main_v14 Cert.ReferenceIdeal.Read.val_main_v13 Cert.ReferenceIdeal.Read.val_main_v12 Cert.ReferenceIdeal.Read.val_main_c Cert.ReferenceIdeal.Read.val_main_c_2 Cert.ReferenceIdeal.Read.val_main_c_3 Cert.ReferenceIdeal.Read.val_main_c_4
  rfl

end Cert.KernelIdeal.Host

end
-- ==== Proof.Chain.lean ====
/-
  The kernel program's buffers, boundary by boundary, are the reference's stages.  Walking @main's segments from
  the launch: the first host stretch leaves the edge list's rows, the degree normalisation and its squared
  column; each region's output array is the whole-array function of the arrays it found (dense product, scaled
  rows, node update, maximum, biased product), which the reference's stage of the same name also is; each host
  stretch between regions computes the reference's stage from the reference's stages; what is read later is
  carried unchanged.  On the domain (every source id a node) the filled gather is the reference's gather.  So the
  last boundary holds the reference's embedding and logits in the two result buffers.
-/
import proofs.«414105_j83975200571652_2_alg».proof.Proof.Gen.KernelIdeal.Frame
import proofs.«414105_j83975200571652_2_alg».proof.Proof.Reg0
import proofs.«414105_j83975200571652_2_alg».proof.Proof.Reg1
import proofs.«414105_j83975200571652_2_alg».proof.Proof.Reg2
import proofs.«414105_j83975200571652_2_alg».proof.Proof.Reg3
import proofs.«414105_j83975200571652_2_alg».proof.Proof.Reg4
import proofs.«414105_j83975200571652_2_alg».proof.Proof.Reg5
import proofs.«414105_j83975200571652_2_alg».proof.Proof.Reg6
import proofs.«414105_j83975200571652_2_alg».proof.Proof.Reg7
import proofs.«414105_j83975200571652_2_alg».proof.Proof.RefSpec
import proofs.«414105_j83975200571652_2_alg».proof.Proof.KHostA
import proofs.«414105_j83975200571652_2_alg».proof.Proof.KHostB
import proofs.«414105_j83975200571652_2_alg».proof.Proof.Range
import proofs.«414105_j83975200571652_2_alg».proof.Proof.Carry

set_option maxRecDepth 16384

noncomputable section

namespace Cert.KernelIdeal.Chain

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-! ## The argument arrays on core c -/
abbrev ax : (⟨Cert.ReferenceIdeal.S100000x128, .f32⟩ : BufTy).Contents (Elt Ideal) := m ((c : Thread nD τ).loc main_arg0)
abbrev aei : (⟨Cert.ReferenceIdeal.S2x1600000, .i32⟩ : BufTy).Contents (Elt Ideal) := m ((c : Thread nD τ).loc main_arg1)
abbrev aw1 : (⟨Cert.ReferenceIdeal.S128x64, .f32⟩ : BufTy).Contents (Elt Ideal) := m ((c : Thread nD τ).loc main_arg2)
abbrev ab1 : (⟨Cert.ReferenceIdeal.S64, .f32⟩ : BufTy).Contents (Elt Ideal) := m ((c : Thread nD τ).loc main_arg3)
abbrev aw2 : (⟨Cert.ReferenceIdeal.S64x64, .f32⟩ : BufTy).Contents (Elt Ideal) := m ((c : Thread nD τ).loc main_arg4)
abbrev ab2 : (⟨Cert.ReferenceIdeal.S64, .f32⟩ : BufTy).Contents (Elt Ideal) := m ((c : Thread nD τ).loc main_arg5)
abbrev awfc : (⟨Cert.ReferenceIdeal.S64x40, .f32⟩ : BufTy).Contents (Elt Ideal) := m ((c : Thread nD τ).loc main_arg6)
abbrev abfc : (⟨Cert.ReferenceIdeal.S40, .f32⟩ : BufTy).Contents (Elt Ideal) := m ((c : Thread nD τ).loc main_arg7)

/-! ## After the first host stretch -/
theorem src1 : W1 (F := Ideal) m ρ c (Proc.devRef .tc main_v1) = (Cert.ReferenceIdeal.Read.val_main_v1 (F := Ideal) (aei m c)) := Host.src0 (W0 m ρ c) (aei m c) rfl
theorem dst1 : W1 (F := Ideal) m ρ c (Proc.devRef .tc main_v3) = (Cert.ReferenceIdeal.Read.val_main_v3 (F := Ideal) (aei m c)) := Host.dst0 (W0 m ρ c) (aei m c) rfl
theorem dis1 : W1 (F := Ideal) m ρ c (Proc.devRef .tc main_v10) = (Cert.ReferenceIdeal.Read.val_main_v11 (F := Ideal) (aei m c)) := Host.dis0 (W0 m ρ c) (aei m c) rfl
theorem dis2col1 : W1 (F := Ideal) m ρ c (Proc.devRef .tc main_v12) = (Cert.ReferenceIdeal.Read.val_main_v41 (F := Ideal) (aei m c)) := Host.dis2col0 (W0 m ρ c) (aei m c) rfl
theorem xb1 : W1 (F := Ideal) m ρ c (Proc.devRef .tc main_v13) = ax m c := Host.xb0 (W0 m ρ c) (ax m c) rfl
theorem w1b1 : W1 (F := Ideal) m ρ c (Proc.devRef .tc main_v14) = aw1 m c := Host.w1b0 (W0 m ρ c) (aw1 m c) rfl

/-! ## Layer 1 -/
/-- Region 0 leaves the first dense product. -/
theorem h1lin2 : W2 (F := Ideal) m ρ c (Proc.devRef .tc main_v15) = (Cert.ReferenceIdeal.Read.val_main_v4 (F := Ideal) (ax m c) (aw1 m c)) := by
  refine (W2_arr m ρ c 2).trans ?_
  rw [Val.final0 (V1 m ρ) c]
  have e0 : V1 (F := Ideal) m ρ c main_v13 = ax m c := xb1 m ρ c
  have e1 : V1 (F := Ideal) m ρ c main_v14 = aw1 m c := w1b1 m ρ c
  rw [e0, e1]
  exact (Cert.ReferenceIdeal.RefSpec.dense1 (ax m c) (aw1 m c)).symm

theorem src2 : W2 (F := Ideal) m ρ c (Proc.devRef .tc main_v1) = (Cert.ReferenceIdeal.Read.val_main_v1 (F := Ideal) (aei m c)) := (Carry.src_2 m ρ c).trans (src1 m ρ c)
theorem dst2 : W2 (F := Ideal) m ρ c (Proc.devRef .tc main_v3) = (Cert.ReferenceIdeal.Read.val_main_v3 (F := Ideal) (aei m c)) := (Carry.dst_2 m ρ c).trans (dst1 m ρ c)
theorem dis2 : W2 (F := Ideal) m ρ c (Proc.devRef .tc main_v10) = (Cert.ReferenceIdeal.Read.val_main_v11 (F := Ideal) (aei m c)) := (Carry.dis_2 m ρ c).trans (dis1 m ρ c)

variable (hr : Cert.Range.InRange (aei m c))
include hr

/-- The gathered rows of layer 1 (on the domain the fill never happens). -/
theorem hsrc4 : W4 (F := Ideal) m ρ c (Proc.devRef .tc main_v16) = (Cert.ReferenceIdeal.Read.val_main_v33 (F := Ideal) (ax m c) (aei m c) (aw1 m c)) :=
  Host.take1 (W2 m ρ c) (ax m c) (aei m c) (aw1 m c) (h1lin2 m ρ c) (src2 m ρ c) hr
omit hr in
theorem coef4 : W4 (F := Ideal) m ρ c (Proc.devRef .tc main_v32) = (Cert.ReferenceIdeal.Read.val_main_v34 (F := Ideal) (aei m c)) :=
  Host.coef1 (W2 m ρ c) (aei m c) (src2 m ρ c) (dst2 m ρ c) (dis2 m ρ c)

/-- Region 1 leaves layer 1's edge messages. -/
theorem msg5 : W5 (F := Ideal) m ρ c (Proc.devRef .tc main_v33) = (Cert.ReferenceIdeal.Read.val_main_v36 (F := Ideal) (ax m c) (aei m c) (aw1 m c)) := by
  refine (W5_arr m ρ c 2).trans ?_
  rw [Val.final1 (V4 m ρ) c]
  have e0 : V4 (F := Ideal) m ρ c main_v16 = (Cert.ReferenceIdeal.Read.val_main_v33 (F := Ideal) (ax m c) (aei m c) (aw1 m c)) := hsrc4 m ρ c hr
  have e1 : V4 (F := Ideal) m ρ c main_v32 = (Cert.ReferenceIdeal.Read.val_main_v34 (F := Ideal) (aei m c)) := coef4 m ρ c
  rw [e0, e1]
  exact (Cert.ReferenceIdeal.RefSpec.msg1 (ax m c) (aei m c) (aw1 m c)).symm

omit hr in
theorem dst5 : W5 (F := Ideal) m ρ c (Proc.devRef .tc main_v3) = (Cert.ReferenceIdeal.Read.val_main_v3 (F := Ideal) (aei m c)) := (Carry.dst_5 m ρ c).trans (dst1 m ρ c)
theorem agg6 : W6 (F := Ideal) m ρ c (Proc.devRef .tc main_v36) = (Cert.ReferenceIdeal.Read.val_main_v39 (F := Ideal) (ax m c) (aei m c) (aw1 m c)) :=
  Host.agg1 (W5 m ρ c) (ax m c) (aei m c) (aw1 m c) (msg5 m ρ c hr) (dst5 m ρ c)
omit hr in
theorem b1row6 : W6 (F := Ideal) m ρ c (Proc.devRef .tc main_v37) = (Cert.ReferenceIdeal.Read.val_main_v45 (F := Ideal) (ab1 m c)) := Host.b1row (W5 m ρ c) (ab1 m c) (Carry.arg3_5 m ρ c)

/-- Region 2 leaves layer 1's node update. -/
theorem h1_7 : W7 (F := Ideal) m ρ c (Proc.devRef .tc main_v38) = (Cert.ReferenceIdeal.Read.val_main_v48 (F := Ideal) (ax m c) (aei m c) (aw1 m c) (ab1 m c)) := by
  refine (W7_arr m ρ c 4).trans ?_
  rw [Val.final2 (V6 m ρ) c]
  have e0 : V6 (F := Ideal) m ρ c main_v36 = (Cert.ReferenceIdeal.Read.val_main_v39 (F := Ideal) (ax m c) (aei m c) (aw1 m c)) := agg6 m ρ c hr
  have e1 : V6 (F := Ideal) m ρ c main_v15 = (Cert.ReferenceIdeal.Read.val_main_v4 (F := Ideal) (ax m c) (aw1 m c)) := (Carry.h1lin_6 m ρ c).trans (h1lin2 m ρ c)
  have e2 : V6 (F := Ideal) m ρ c main_v12 = (Cert.ReferenceIdeal.Read.val_main_v41 (F := Ideal) (aei m c)) := (Carry.dis2col_6 m ρ c).trans (dis2col1 m ρ c)
  have e3 : V6 (F := Ideal) m ρ c main_v37 = (Cert.ReferenceIdeal.Read.val_main_v45 (F := Ideal) (ab1 m c)) := b1row6 m ρ c
  rw [e0, e1, e2, e3]
  exact (Cert.ReferenceIdeal.RefSpec.upd1 (ax m c) (aei m c) (aw1 m c) (ab1 m c)).symm

/-! ## Layer 2 -/
theorem h1b8 : W8 (F := Ideal) m ρ c (Proc.devRef .tc main_v39) = (Cert.ReferenceIdeal.Read.val_main_v48 (F := Ideal) (ax m c) (aei m c) (aw1 m c) (ab1 m c)) := Host.h1b (W7 m ρ c) _ (h1_7 m ρ c hr)
omit hr in
theorem w2b8 : W8 (F := Ideal) m ρ c (Proc.devRef .tc main_v40) = aw2 m c := Host.w2b (W7 m ρ c) (aw2 m c) (Carry.arg4_7 m ρ c)

/-- Region 3 leaves the second dense product. -/
theorem h2lin9 : W9 (F := Ideal) m ρ c (Proc.devRef .tc main_v41) = (Cert.ReferenceIdeal.Read.val_main_v49 (F := Ideal) (ax m c) (aei m c) (aw1 m c) (ab1 m c) (aw2 m c)) := by
  refine (W9_arr m ρ c 2).trans ?_
  rw [Val.final3 (V8 m ρ) c]
  have e0 : V8 (F := Ideal) m ρ c main_v39 = (Cert.ReferenceIdeal.Read.val_main_v48 (F := Ideal) (ax m c) (aei m c) (aw1 m c) (ab1 m c)) := h1b8 m ρ c hr
  have e1 : V8 (F := Ideal) m ρ c main_v40 = aw2 m c := w2b8 m ρ c
  rw [e0, e1]
  exact (Cert.ReferenceIdeal.RefSpec.dense2 (ax m c) (aei m c) (aw1 m c) (ab1 m c) (aw2 m c)).symm

omit hr in
theorem src9 : W9 (F := Ideal) m ρ c (Proc.devRef .tc main_v1) = (Cert.ReferenceIdeal.Read.val_main_v1 (F := Ideal) (aei m c)) := (Carry.src_9 m ρ c).trans (src1 m ρ c)
omit hr in
theorem dst9 : W9 (F := Ideal) m ρ c (Proc.devRef .tc main_v3) = (Cert.ReferenceIdeal.Read.val_main_v3 (F := Ideal) (aei m c)) := (Carry.dst_9 m ρ c).trans (dst1 m ρ c)
omit hr in
theorem dis9 : W9 (F := Ideal) m ρ c (Proc.devRef .tc main_v10) = (Cert.ReferenceIdeal.Read.val_main_v11 (F := Ideal) (aei m c)) := (Carry.dis_9 m ρ c).trans (dis1 m ρ c)

theorem hsrc11 : W11 (F := Ideal) m ρ c (Proc.devRef .tc main_v42) = (Cert.ReferenceIdeal.Read.val_main_v78 (F := Ideal) (ax m c) (aei m c) (aw1 m c) (ab1 m c) (aw2 m c)) :=
  Host.take2 (W9 m ρ c) (ax m c) (aei m c) (aw1 m c) (ab1 m c) (aw2 m c) (h2lin9 m ρ c hr) (src9 m ρ c) hr
omit hr in
theorem coef11 : W11 (F := Ideal) m ρ c (Proc.devRef .tc main_v58) = (Cert.ReferenceIdeal.Read.val_main_v34 (F := Ideal) (aei m c)) :=
  Host.coef2 (W9 m ρ c) (aei m c) (src9 m ρ c) (dst9 m ρ c) (dis9 m ρ c)

/-- Region 4 leaves layer 2's edge messages. -/
theorem msg12 : W12 (F := Ideal) m ρ c (Proc.devRef .tc main_v59) = (Cert.ReferenceIdeal.Read.val_main_v81 (F := Ideal) (ax m c) (aei m c) (aw1 m c) (ab1 m c) (aw2 m c)) := by
  refine (W12_arr m ρ c 2).trans ?_
  rw [Val.final4 (V11 m ρ) c]
  have e0 : V11 (F := Ideal) m ρ c main_v42 = (Cert.ReferenceIdeal.Read.val_main_v78 (F := Ideal) (ax m c) (aei m c) (aw1 m c) (ab1 m c) (aw2 m c)) := hsrc11 m ρ c hr
  have e1 : V11 (F := Ideal) m ρ c main_v58 = (Cert.ReferenceIdeal.Read.val_main_v79 (F := Ideal) (aei m c)) := (coef11 m ρ c).trans (Cert.ReferenceIdeal.RefSpec.coefcol_again (aei m c)).symm
  rw [e0, e1]
  exact (Cert.ReferenceIdeal.RefSpec.msg2 (ax m c) (aei m c) (aw1 m c) (ab1 m c) (aw2 m c)).symm

omit hr in
theorem dst12 : W12 (F := Ideal) m ρ c (Proc.devRef .tc main_v3) = (Cert.ReferenceIdeal.Read.val_main_v3 (F := Ideal) (aei m c)) := (Carry.dst_12 m ρ c).trans (dst1 m ρ c)
theorem agg13 : W13 (F := Ideal) m ρ c (Proc.devRef .tc main_v62) = (Cert.ReferenceIdeal.Read.val_main_v84 (F := Ideal) (ax m c) (aei m c) (aw1 m c) (ab1 m c) (aw2 m c)) :=
  Host.agg2 (W12 m ρ c) (ax m c) (aei m c) (aw1 m c) (ab1 m c) (aw2 m c) (msg12 m ρ c hr) (dst12 m ρ c)
omit hr in
theorem b2row13 : W13 (F := Ideal) m ρ c (Proc.devRef .tc main_v63) = (Cert.ReferenceIdeal.Read.val_main_v90 (F := Ideal) (ab2 m c)) := Host.b2row (W12 m ρ c) (ab2 m c) (Carry.arg5_12 m ρ c)

/-- Region 5 leaves layer 2's node update. -/
theorem h2_14 : W14 (F := Ideal) m ρ c (Proc.devRef .tc main_v64) = (Cert.ReferenceIdeal.Read.val_main_v93 (F := Ideal) (ax m c) (aei m c) (aw1 m c) (ab1 m c) (aw2 m c) (ab2 m c)) := by
  refine (W14_arr m ρ c 4).trans ?_
  rw [Val.final5 (V13 m ρ) c]
  have e0 : V13 (F := Ideal) m ρ c main_v62 = (Cert.ReferenceIdeal.Read.val_main_v84 (F := Ideal) (ax m c) (aei m c) (aw1 m c) (ab1 m c) (aw2 m c)) := agg13 m ρ c hr
  have e1 : V13 (F := Ideal) m ρ c main_v41 = (Cert.ReferenceIdeal.Read.val_main_v49 (F := Ideal) (ax m c) (aei m c) (aw1 m c) (ab1 m c) (aw2 m c)) := (Carry.h2lin_13 m ρ c).trans (h2lin9 m ρ c hr)
  have e2 : V13 (F := Ideal) m ρ c main_v12 = (Cert.ReferenceIdeal.Read.val_main_v86 (F := Ideal) (aei m c)) :=
    ((Carry.dis2col_13 m ρ c).trans (dis2col1 m ρ c)).trans (Cert.ReferenceIdeal.RefSpec.dis2col_again (aei m c)).symm
  have e3 : V13 (F := Ideal) m ρ c main_v63 = (Cert.ReferenceIdeal.Read.val_main_v90 (F := Ideal) (ab2 m c)) := b2row13 m ρ c
  rw [e0, e1, e2, e3]
  exact (Cert.ReferenceIdeal.RefSpec.upd2 (ax m c) (aei m c) (aw1 m c) (ab1 m c) (aw2 m c) (ab2 m c)).symm

/-! ## The results -/
/-- Region 6 leaves the embedding. -/
theorem emb15 : W15 (F := Ideal) m ρ c (Proc.devRef .tc main_v65) = (Cert.ReferenceIdeal.Read.val_main_v94 (F := Ideal) (ax m c) (aei m c) (aw1 m c) (ab1 m c) (aw2 m c) (ab2 m c)) := by
  refine (W15_arr m ρ c 2).trans ?_
  rw [Val.final6 (V14 m ρ) c]
  have e0 : V14 (F := Ideal) m ρ c main_v38 = (Cert.ReferenceIdeal.Read.val_main_v48 (F := Ideal) (ax m c) (aei m c) (aw1 m c) (ab1 m c)) := (Carry.h1_14 m ρ c).trans (h1_7 m ρ c hr)
  have e1 : V14 (F := Ideal) m ρ c main_v64 = (Cert.ReferenceIdeal.Read.val_main_v93 (F := Ideal) (ax m c) (aei m c) (aw1 m c) (ab1 m c) (aw2 m c) (ab2 m c)) := h2_14 m ρ c hr
  rw [e0, e1]
  exact (Cert.ReferenceIdeal.RefSpec.emb (ax m c) (aei m c) (aw1 m c) (ab1 m c) (aw2 m c) (ab2 m c)).symm

theorem embb16 : W16 (F := Ideal) m ρ c (Proc.devRef .tc main_v66) = (Cert.ReferenceIdeal.Read.val_main_v94 (F := Ideal) (ax m c) (aei m c) (aw1 m c) (ab1 m c) (aw2 m c) (ab2 m c)) := Host.embb (W15 m ρ c) _ (emb15 m ρ c hr)
omit hr in
theorem wfcb16 : W16 (F := Ideal) m ρ c (Proc.devRef .tc main_v67) = awfc m c := Host.wfcb (W15 m ρ c) (awfc m c) (Carry.arg6_15 m ρ c)
omit hr in
theorem bfcrow16 : W16 (F := Ideal) m ρ c (Proc.devRef .tc main_v68) = (Cert.ReferenceIdeal.Read.val_main_v96 (F := Ideal) (abfc m c)) := Host.bfcrow (W15 m ρ c) (abfc m c) (Carry.arg7_15 m ρ c)

/-- Region 7 leaves the logits. -/
theorem logits17 : W17 (F := Ideal) m ρ c (Proc.devRef .tc main_v69) = (Cert.ReferenceIdeal.Read.val_main_v98 (F := Ideal) (ax m c) (aei m c) (aw1 m c) (ab1 m c) (aw2 m c) (ab2 m c) (awfc m c) (abfc m c)) := by
  refine (W17_arr m ρ c 3).trans ?_
  rw [Val.final7 (V16 m ρ) c]
  have e0 : V16 (F := Ideal) m ρ c main_v66 = (Cert.ReferenceIdeal.Read.val_main_v94 (F := Ideal) (ax m c) (aei m c) (aw1 m c) (ab1 m c) (aw2 m c) (ab2 m c)) := embb16 m ρ c hr
  have e1 : V16 (F := Ideal) m ρ c main_v67 = awfc m c := wfcb16 m ρ c
  have e2 : V16 (F := Ideal) m ρ c main_v68 = (Cert.ReferenceIdeal.Read.val_main_v96 (F := Ideal) (abfc m c)) := bfcrow16 m ρ c
  rw [e0, e1, e2]
  exact (Cert.ReferenceIdeal.RefSpec.logits (ax m c) (aei m c) (aw1 m c) (ab1 m c) (aw2 m c) (ab2 m c) (awfc m c) (abfc m c)).symm

/-- The embedding is still there at the last boundary. -/
theorem emb17 : W17 (F := Ideal) m ρ c (Proc.devRef .tc main_v65) = (Cert.ReferenceIdeal.Read.val_main_v94 (F := Ideal) (ax m c) (aei m c) (aw1 m c) (ab1 m c) (aw2 m c) (ab2 m c)) := (Carry.emb_17 m ρ c).trans (emb15 m ρ c hr)

end Cert.KernelIdeal.Chain

end
-- ==== Proof.lean ====
/-
  The certificate of a two-layer graph convolution with a maximum over the layers and a linear classifier:
  each layer is relu(scatter-add over destinations of (h[src] · dis[src] · dis[dst]) + h · dis² + b) with
  h = x · W and dis the inverse square root of the in-degree plus one.  The kernel program computes the dense
  products, the per-edge scaling, the node update, the maximum and the biased classifier product in eight
  TensorCore regions and the gathers and scatter-adds on the host; the reference computes everything on the
  host.  Over the extended reals the two are one function wherever every source node id is a node: the kernel's
  row gather fills a row with a not-a-number word exactly when the id is out of range, which the domain
  excludes, and every other operation is the same operation (a change of float format is the identity, a
  matrix product into a zero accumulator is the row-times-column sum, a reshape of a vector to a column or a
  row is the broadcast the reference writes).  The three frames are the generated frame certificates (the
  reference's from its generated run); the idealisation's ledger is empty.
-/
import proofs.«414105_j83975200571652_2_alg».proof.Defs
import proofs.«414105_j83975200571652_2_alg».proof.Proof.Gen.Kernel
import proofs.«414105_j83975200571652_2_alg».proof.Proof.Gen.Kernel.Skeleton
import proofs.«414105_j83975200571652_2_alg».proof.Proof.Gen.Kernel.Launch
import proofs.«414105_j83975200571652_2_alg».proof.Proof.Gen.Kernel.Points
import proofs.«414105_j83975200571652_2_alg».proof.Proof.Gen.Kernel.Frame
import proofs.«414105_j83975200571652_2_alg».proof.Proof.Gen.KernelIdeal
import proofs.«414105_j83975200571652_2_alg».proof.Proof.Gen.KernelIdeal.Skeleton
import proofs.«414105_j83975200571652_2_alg».proof.Proof.Gen.KernelIdeal.Launch
import proofs.«414105_j83975200571652_2_alg».proof.Proof.Gen.KernelIdeal.Points
import proofs.«414105_j83975200571652_2_alg».proof.Proof.Gen.KernelIdeal.Frame
import proofs.«414105_j83975200571652_2_alg».proof.Proof.Gen.ReferenceIdeal
import proofs.«414105_j83975200571652_2_alg».proof.Proof.Gen.ReferenceIdeal.Run
import proofs.«414105_j83975200571652_2_alg».proof.Proof.Gen.ReferenceIdeal.Read
import proofs.«414105_j83975200571652_2_alg».proof.Proof.Gen.Pre_finite_inputs
import proofs.«414105_j83975200571652_2_alg».proof.Proof.KRun
import proofs.«414105_j83975200571652_2_alg».proof.Proof.Range
import proofs.«414105_j83975200571652_2_alg».proof.Proof.Chain
import Idealize.ShloMosaic.Adequacy
import Idealize.ShloMosaic.Init

noncomputable section

namespace Cert.Proof

open Idealize.ShloMosaic Idealize.SL.Sem

/-- The word-level kernel program runs to the end without a fault and leaves its arguments unchanged. -/
theorem frame_kernel : Cert.frame_Kernel := fun m ρ _ => Cert.Kernel.Gen.frame m ρ

/-- So does the idealised kernel program. -/
theorem frame_kernelIdeal : Cert.frame_KernelIdeal := fun m ρ _ => Cert.KernelIdeal.Gen.frame m ρ

/-- And the reference: its run, with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealisation rewrote nothing. -/
theorem preserves : Cert.preserves_Kernel_KernelIdeal := trivial

/-- From memories that agree on the arguments, with every source id a node, both programs end with the same
    embedding and the same logits: the kernel program's last segment boundary holds the reference's two stages. -/
theorem algebraic : Cert.algebraic_KernelIdeal_ReferenceIdeal := by
  intro m ρ m' ρ' hpre hagree
  refine ⟨fun c => Cert.KernelIdeal.Gen.W17 (F := Ideal) m ρ c (Proc.devRef .tc Cert.KernelIdeal.main_v65),
    fun c => Cert.KernelIdeal.Gen.W17 (F := Ideal) m ρ c (Proc.devRef .tc Cert.KernelIdeal.main_v69),
    Cert.KernelIdeal.Gen.run_named (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v94_eq, (hagree c).1, (hagree c).2.1, (hagree c).2.2.1, (hagree c).2.2.2.1, (hagree c).2.2.2.2.1, (hagree c).2.2.2.2.2.1]
    exact (Cert.KernelIdeal.Chain.emb17 m ρ c (Cert.Range.inRange_of_pre m hpre c)).symm
  · rw [Cert.ReferenceIdeal.Read.val_main_v98_eq, (hagree c).1, (hagree c).2.1, (hagree c).2.2.1, (hagree c).2.2.2.1, (hagree c).2.2.2.2.1, (hagree c).2.2.2.2.2.1, (hagree c).2.2.2.2.2.2.1, (hagree c).2.2.2.2.2.2.2]
    exact (Cert.KernelIdeal.Chain.logits17 m ρ c (Cert.Range.inRange_of_pre m hpre c)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
